-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x2 : Shape := ⟨2, ![9, 2]⟩
abbrev S16x64x64x2 : Shape := ⟨4, ![16, 64, 64, 2]⟩
abbrev S16x9x64x64x4 : Shape := ⟨5, ![16, 9, 64, 64, 4]⟩
abbrev S16x40x5 : Shape := ⟨3, ![16, 40, 5]⟩
abbrev S_ : Shape := ⟨0, ![]⟩

class Facts : Prop where
  bcast_S_S9x2 : S_.BroadcastsInDim S9x2 (![] : Fin 0 → Fin S9x2.rank)
  reducesTo_S9x2_S_d0_1 : S9x2.ReducesTo [0, 1] S_
  h_S_ : 0 < S_.numel
  bcast_S_S16x64x64x2 : S_.BroadcastsInDim S16x64x64x2 (![] : Fin 0 → Fin S16x64x64x2.rank)
  reducesTo_S16x64x64x2_S_d0_1_2_3 : S16x64x64x2.ReducesTo [0, 1, 2, 3] S_
  bcast_S_S16x9x64x64x4 : S_.BroadcastsInDim S16x9x64x64x4 (![] : Fin 0 → Fin S16x9x64x64x4.rank)
  reducesTo_S16x9x64x64x4_S_d0_1_2_3_4 : S16x9x64x64x4.ReducesTo [0, 1, 2, 3, 4] S_
  bcast_S_S16x40x5 : S_.BroadcastsInDim S16x40x5 (![] : Fin 0 → Fin S16x40x5.rank)
  reducesTo_S16x40x5_S_d0_1_2 : S16x40x5.ReducesTo [0, 1, 2] S_

variable [Facts]

def fn_part1 {F : FTy → Type} [FloatOps F] (main_v13 : IVec S_ 1) (main_v16 : IVec S16x40x5 1) : IVec S_ 1 :=
  let main_c_5 : IVec S_ 1 := constantI S_ 1 1#1
  let main_v17 : IVec S_ 1 := (fun x v => Host.reduce IntOp.andi x v reducesTo_S16x40x5_S_d0_1_2 h_S_) main_v16 main_c_5
  let main_v18 : IVec S_ 1 := andi main_v13 main_v17
  main_v18

def fn {F : FTy → Type} [FloatOps F] (main_arg0 : FVec F S9x2 .f32) (main_arg1 : FVec F S16x64x64x2 .f32) (main_arg2 : FVec F S16x9x64x64x4 .f32) (main_arg3 : FVec F S16x40x5 .f32) : IVec S_ 1 :=
  let main_v0 : FVec F S9x2 .f32 := Host.absf main_arg0
  let main_cst : FVec F S_ .f32 := constant S_ .f32 0x7F800000#32
  let main_v1 : FVec F S9x2 .f32 := broadcastInDim S9x2 ![] bcast_S_S9x2 main_cst
  let main_v2 : IVec S9x2 1 := cmpf .olt main_v0 main_v1
  let main_c : IVec S_ 1 := constantI S_ 1 1#1
  let main_v3 : IVec S_ 1 := (fun x v => Host.reduce IntOp.andi x v reducesTo_S9x2_S_d0_1 h_S_) main_v2 main_c
  let main_v4 : FVec F S16x64x64x2 .f32 := Host.absf main_arg1
  let main_cst_0 : FVec F S_ .f32 := constant S_ .f32 0x7F800000#32
  let main_v5 : FVec F S16x64x64x2 .f32 := broadcastInDim S16x64x64x2 ![] bcast_S_S16x64x64x2 main_cst_0
  let main_v6 : IVec S16x64x64x2 1 := cmpf .olt main_v4 main_v5
  let main_c_1 : IVec S_ 1 := constantI S_ 1 1#1
  let main_v7 : IVec S_ 1 := (fun x v => Host.reduce IntOp.andi x v reducesTo_S16x64x64x2_S_d0_1_2_3 h_S_) main_v6 main_c_1
  let main_v8 : IVec S_ 1 := andi main_v3 main_v7
  let main_v9 : FVec F S16x9x64x64x4 .f32 := Host.absf main_arg2
  let main_cst_2 : FVec F S_ .f32 := constant S_ .f32 0x7F800000#32
  let main_v10 : FVec F S16x9x64x64x4 .f32 := broadcastInDim S16x9x64x64x4 ![] bcast_S_S16x9x64x64x4 main_cst_2
  let main_v11 : IVec S16x9x64x64x4 1 := cmpf .olt main_v9 main_v10
  let main_c_3 : IVec S_ 1 := constantI S_ 1 1#1
  let main_v12 : IVec S_ 1 := (fun x v => Host.reduce IntOp.andi x v reducesTo_S16x9x64x64x4_S_d0_1_2_3_4 h_S_) main_v11 main_c_3
  let main_v13 : IVec S_ 1 := andi main_v8 main_v12
  let main_v14 : FVec F S16x40x5 .f32 := Host.absf main_arg3
  let main_cst_4 : FVec F S_ .f32 := constant S_ .f32 0x7F800000#32
  let main_v15 : FVec F S16x40x5 .f32 := broadcastInDim S16x40x5 ![] bcast_S_S16x40x5 main_cst_4
  let main_v16 : IVec S16x40x5 1 := cmpf .olt main_v14 main_v15
  fn_part1 (F := F) main_v13 main_v16
-- ==== Kernel.lean ====
abbrev S9x2 : Shape := ⟨2, ![9, 2]⟩
abbrev S16x64x64x2 : Shape := ⟨4, ![16, 64, 64, 2]⟩
abbrev S16x9x64x64x4 : Shape := ⟨5, ![16, 9, 64, 64, 4]⟩
abbrev S16x40x5 : Shape := ⟨3, ![16, 40, 5]⟩
abbrev S16x4096x2 : Shape := ⟨3, ![16, 4096, 2]⟩
abbrev S16x9x4096x4 : Shape := ⟨4, ![16, 9, 4096, 4]⟩
abbrev S9x1x2 : Shape := ⟨3, ![9, 1, 2]⟩
abbrev S16x9x4096x40 : Shape := ⟨4, ![16, 9, 4096, 40]⟩
abbrev S1x1x2 : Shape := ⟨3, ![1, 1, 2]⟩
abbrev S1x1024x2 : Shape := ⟨3, ![1, 1024, 2]⟩
abbrev S1x1x1024x4 : Shape := ⟨4, ![1, 1, 1024, 4]⟩
abbrev S1x40x5 : Shape := ⟨3, ![1, 40, 5]⟩
abbrev S1x1x1024x40 : Shape := ⟨4, ![1, 1, 1024, 40]⟩
abbrev S2 : Shape := ⟨1, ![2]⟩
abbrev S1024x2 : Shape := ⟨2, ![1024, 2]⟩
abbrev S1024x4 : Shape := ⟨2, ![1024, 4]⟩
abbrev S1x2 : Shape := ⟨2, ![1, 2]⟩
abbrev S1024x1 : Shape := ⟨2, ![1024, 1]⟩
abbrev S1024 : Shape := ⟨1, ![1024]⟩
abbrev S40x5 : Shape := ⟨2, ![40, 5]⟩
abbrev S40x1 : Shape := ⟨2, ![40, 1]⟩
abbrev S40 : Shape := ⟨1, ![40]⟩
abbrev S1x40 : Shape := ⟨2, ![1, 40]⟩
abbrev S1024x40 : Shape := ⟨2, ![1024, 40]⟩
abbrev S16x36864x40 : Shape := ⟨3, ![16, 36864, 40]⟩

abbrev nBuf : Space → Nat
  | .hbm => 9
  | .vmem => 10
  | .smem => 0
  | _ => 0

abbrev bufTy : (tb : Table) → Fin (tcTables nBuf tb) → BufTy
  | .hbm, ⟨0, _⟩ => ⟨S9x2, .f32⟩
  | .hbm, ⟨1, _⟩ => ⟨S16x64x64x2, .f32⟩
  | .hbm, ⟨2, _⟩ => ⟨S16x9x64x64x4, .f32⟩
  | .hbm, ⟨3, _⟩ => ⟨S16x40x5, .f32⟩
  | .hbm, ⟨4, _⟩ => ⟨S16x4096x2, .f32⟩
  | .hbm, ⟨5, _⟩ => ⟨S16x9x4096x4, .f32⟩
  | .hbm, ⟨6, _⟩ => ⟨S9x1x2, .f32⟩
  | .hbm, ⟨7, _⟩ => ⟨S16x9x4096x40, .f32⟩
  | .hbm, ⟨8, _⟩ => ⟨S16x36864x40, .f32⟩
  | .local _ .vmem, ⟨0, _⟩ => ⟨S1x1x2, .f32⟩
  | .local _ .vmem, ⟨1, _⟩ => ⟨S1x1x2, .f32⟩
  | .local _ .vmem, ⟨2, _⟩ => ⟨S1x1024x2, .f32⟩
  | .local _ .vmem, ⟨3, _⟩ => ⟨S1x1024x2, .f32⟩
  | .local _ .vmem, ⟨4, _⟩ => ⟨S1x1x1024x4, .f32⟩
  | .local _ .vmem, ⟨5, _⟩ => ⟨S1x1x1024x4, .f32⟩
  | .local _ .vmem, ⟨6, _⟩ => ⟨S1x40x5, .f32⟩
  | .local _ .vmem, ⟨7, _⟩ => ⟨S1x40x5, .f32⟩
  | .local _ .vmem, ⟨8, _⟩ => ⟨S1x1x1024x40, .f32⟩
  | .local _ .vmem, ⟨9, _⟩ => ⟨S1x1x1024x40, .f32⟩
  | _, _ => ⟨S9x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x40x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S16x64x64x2_S16x4096x2 : S16x64x64x2.ShapeCasts S16x4096x2
  shapeCasts_S16x9x64x64x4_S16x9x4096x4 : S16x9x64x64x4.ShapeCasts S16x9x4096x4
  shapeCasts_S9x2_S9x1x2 : S9x2.ShapeCasts S9x1x2
  inb_S1x1x2_S1x1x2_0_0_0 : ∀ a, (![0, 0, 0] : Fin 3 → Nat) a + S1x1x2.size a ≤ S1x1x2.size a
  h_S1x1x2 : 0 < S1x1x2.numel
  shapeCasts_S1x1x2_S2 : S1x1x2.ShapeCasts S2
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x1x1024x4_S1x1x1024x4_0_0_0_0 : ∀ a, (![0, 0, 0, 0] : Fin 4 → Nat) a + S1x1x1024x4.size a ≤ S1x1x1024x4.size a
  h_S1x1x1024x4 : 0 < S1x1x1024x4.numel
  shapeCasts_S1x1x1024x4_S1024x4 : S1x1x1024x4.ShapeCasts S1024x4
  slices_S1024x4_o0_0_S1024x2 : S1024x4.Slices ![0, 0] S1024x2
  slices_S1024x4_o0_2_S1024x2 : S1024x4.Slices ![0, 2] S1024x2
  shapeCasts_S2_S1x2 : S2.ShapeCasts S1x2
  broadcasts_S1x2_S1024x2 : S1x2.Broadcasts S1024x2
  slices_S1024x2_o0_0_S1024x1 : S1024x2.Slices ![0, 0] S1024x1
  shapeCasts_S1024x1_S1024 : S1024x1.ShapeCasts S1024
  slices_S1024x2_o0_1_S1024x1 : S1024x2.Slices ![0, 1] S1024x1
  inb_S1x40x5_S1x40x5_0_0_0 : ∀ a, (![0, 0, 0] : Fin 3 → Nat) a + S1x40x5.size a ≤ S1x40x5.size a
  h_S1x40x5 : 0 < S1x40x5.numel
  shapeCasts_S1x40x5_S40x5 : S1x40x5.ShapeCasts S40x5
  slices_S40x5_o0_0_S40x1 : S40x5.Slices ![0, 0] S40x1
  shapeCasts_S40x1_S40 : S40x1.ShapeCasts S40
  slices_S40x5_o0_1_S40x1 : S40x5.Slices ![0, 1] S40x1
  slices_S40x5_o0_2_S40x1 : S40x5.Slices ![0, 2] S40x1
  slices_S40x5_o0_3_S40x1 : S40x5.Slices ![0, 3] S40x1
  shapeCasts_S1024_S1024x1 : S1024.ShapeCasts S1024x1
  shapeCasts_S40_S1x40 : S40.ShapeCasts S1x40
  broadcasts_S1024x1_S1024x40 : S1024x1.Broadcasts S1024x40
  broadcasts_S1x40_S1024x40 : S1x40.Broadcasts S1024x40
  inb_S1x1x1024x40_S1x1x1024x40_0_0_0_0 : ∀ a, (![0, 0, 0, 0] : Fin 4 → Nat) a + S1x1x1024x40.size a ≤ S1x1x1024x40.size a
  h_S1x1x1024x40 : 0 < S1x1x1024x40.numel
  shapeCasts_S1x1x1024x40_S1024x40 : S1x1x1024x40.ShapeCasts S1024x40
  shapeCasts_S1024x40_S1x1x1024x40 : S1024x40.ShapeCasts S1x1x1024x40
  shapeCasts_S16x9x4096x40_S16x36864x40 : S16x9x4096x40.ShapeCasts S16x36864x40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2.size a ≤ S9x1x2.size a
  hwx0_0 : ∀ i : grid0.Coords, EltTy.bits .f32 = 32 ∨ (Rect.block (s := S9x1x2) S1x1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2.size a ≤ S16x4096x2.size a
  hwx0_1 : ∀ i : grid0.Coords, EltTy.bits .f32 = 32 ∨ (Rect.block (s := S16x4096x2) S1x1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x4.size a ≤ S16x9x4096x4.size a
  hwx0_2 : ∀ i : grid0.Coords, EltTy.bits .f32 = 32 ∨ (Rect.block (s := S16x9x4096x4) S1x1x1024x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x40x5.size a ≤ S16x40x5.size a
  hwx0_3 : ∀ i : grid0.Coords, EltTy.bits .f32 = 32 ∨ (Rect.block (s := S16x40x5) S1x40x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x40.size a ≤ S16x9x4096x40.size a
  hwx0_4 : ∀ i : grid0.Coords, EltTy.bits .f32 = 32 ∨ (Rect.block (s := S16x9x4096x40) S1x1x1024x40.size (cc0_transform_4 i) (hinb0_4 i)).WholeWords (EltTy.packing .f32)

variable [Facts₀]

abbrev win0_0 : Pipeline.Window sig grid0 :=
  Pipeline.Window.ofSpec (Memref.whole main_v2) S1x1x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x40x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x1024x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S9x2 : Shape := ⟨2, ![9, 2]⟩
abbrev S16x64x64x2 : Shape := ⟨4, ![16, 64, 64, 2]⟩
abbrev S16x9x64x64x4 : Shape := ⟨5, ![16, 9, 64, 64, 4]⟩
abbrev S16x40x5 : Shape := ⟨3, ![16, 40, 5]⟩
abbrev S_ : Shape := ⟨0, ![]⟩
abbrev S1x9x1x1x2 : Shape := ⟨5, ![1, 9, 1, 1, 2]⟩
abbrev S16x1x64x64x2 : Shape := ⟨5, ![16, 1, 64, 64, 2]⟩
abbrev S16x9x64x64x2 : Shape := ⟨5, ![16, 9, 64, 64, 2]⟩
abbrev S16x9x64x64x1 : Shape := ⟨5, ![16, 9, 64, 64, 1]⟩
abbrev S16x9x64x64 : Shape := ⟨4, ![16, 9, 64, 64]⟩
abbrev S16x36864x1x4 : Shape := ⟨4, ![16, 36864, 1, 4]⟩
abbrev S16x40x4 : Shape := ⟨3, ![16, 40, 4]⟩
abbrev S16x1x40x4 : Shape := ⟨4, ![16, 1, 40, 4]⟩
abbrev S16x36864x1x1 : Shape := ⟨4, ![16, 36864, 1, 1]⟩
abbrev S16x36864x1 : Shape := ⟨3, ![16, 36864, 1]⟩
abbrev S16x1x40x1 : Shape := ⟨4, ![16, 1, 40, 1]⟩
abbrev S16x1x40 : Shape := ⟨3, ![16, 1, 40]⟩
abbrev S16x36864x40 : Shape := ⟨3, ![16, 36864, 40]⟩

abbrev nBuf : Space → Nat
  | .hbm => 146
  | .vmem => 0
  | .smem => 0
  | _ => 0

abbrev hbmTy0_0 (i : Nat) : BufTy := match i % 128 with
  | 0 => ⟨S9x2, .f32⟩
  | 1 => ⟨S16x64x64x2, .f32⟩
  | 2 => ⟨S16x9x64x64x4, .f32⟩
  | 3 => ⟨S16x40x5, .f32⟩
  | 4 => ⟨S_, .f32⟩
  | 5 => ⟨S9x2, .f32⟩
  | 6 => ⟨S9x2, .f32⟩
  | 7 => ⟨S1x9x1x1x2, .f32⟩
  | 8 => ⟨S16x1x64x64x2, .f32⟩
  | 9 => ⟨S16x9x64x64x2, .f32⟩
  | 10 => ⟨S16x9x64x64x2, .f32⟩
  | 11 => ⟨S16x9x64x64x2, .f32⟩
  | 12 => ⟨S16x9x64x64x2, .f32⟩
  | 13 => ⟨S16x9x64x64x2, .f32⟩
  | 14 => ⟨S16x9x64x64x2, .f32⟩
  | 15 => ⟨S16x9x64x64x4, .f32⟩
  | 16 => ⟨S16x9x64x64x1, .f32⟩
  | 17 => ⟨S16x9x64x64, .f32⟩
  | 18 => ⟨S16x9x64x64x1, .f32⟩
  | 19 => ⟨S16x9x64x64, .f32⟩
  | 20 => ⟨S16x9x64x64, .f32⟩
  | 21 => ⟨S_, .f32⟩
  | 22 => ⟨S16x9x64x64, .f32⟩
  | 23 => ⟨S16x9x64x64, .f32⟩
  | 24 => ⟨S16x9x64x64x1, .f32⟩
  | 25 => ⟨S16x9x64x64, .f32⟩
  | 26 => ⟨S16x9x64x64, .f32⟩
  | 27 => ⟨S16x9x64x64x1, .f32⟩
  | 28 => ⟨S16x9x64x64, .f32⟩
  | 29 => ⟨S16x9x64x64x1, .f32⟩
  | 30 => ⟨S16x9x64x64, .f32⟩
  | 31 => ⟨S16x9x64x64, .f32⟩
  | 32 => ⟨S_, .f32⟩
  | 33 => ⟨S16x9x64x64, .f32⟩
  | 34 => ⟨S16x9x64x64, .f32⟩
  | 35 => ⟨S16x9x64x64x1, .f32⟩
  | 36 => ⟨S16x9x64x64, .f32⟩
  | 37 => ⟨S16x9x64x64, .f32⟩
  | 38 => ⟨S16x9x64x64x1, .f32⟩
  | 39 => ⟨S16x9x64x64, .f32⟩
  | 40 => ⟨S16x9x64x64x1, .f32⟩
  | 41 => ⟨S16x9x64x64, .f32⟩
  | 42 => ⟨S16x9x64x64, .f32⟩
  | 43 => ⟨S16x9x64x64x1, .f32⟩
  | 44 => ⟨S16x9x64x64, .f32⟩
  | 45 => ⟨S16x9x64x64, .f32⟩
  | 46 => ⟨S16x9x64x64, .f32⟩
  | 47 => ⟨S16x9x64x64x1, .f32⟩
  | 48 => ⟨S16x9x64x64, .f32⟩
  | 49 => ⟨S16x9x64x64x1, .f32⟩
  | 50 => ⟨S16x9x64x64, .f32⟩
  | 51 => ⟨S16x9x64x64, .f32⟩
  | 52 => ⟨S16x9x64x64x1, .f32⟩
  | 53 => ⟨S16x9x64x64, .f32⟩
  | 54 => ⟨S16x9x64x64, .f32⟩
  | 55 => ⟨S16x9x64x64, .f32⟩
  | 56 => ⟨S_, .f32⟩
  | 57 => ⟨S16x9x64x64, .f32⟩
  | 58 => ⟨S16x9x64x64, .f32⟩
  | 59 => ⟨S16x9x64x64, .f32⟩
  | 60 => ⟨S_, .f32⟩
  | 61 => ⟨S16x9x64x64, .f32⟩
  | 62 => ⟨S16x9x64x64, .f32⟩
  | 63 => ⟨S16x9x64x64, .f32⟩
  | 64 => ⟨S_, .f32⟩
  | 65 => ⟨S16x9x64x64, .f32⟩
  | 66 => ⟨S16x9x64x64, .f32⟩
  | 67 => ⟨S16x9x64x64, .f32⟩
  | 68 => ⟨S_, .f32⟩
  | 69 => ⟨S16x9x64x64, .f32⟩
  | 70 => ⟨S16x9x64x64, .f32⟩
  | 71 => ⟨S16x9x64x64, .f32⟩
  | 72 => ⟨S16x9x64x64x1, .f32⟩
  | 73 => ⟨S16x9x64x64x1, .f32⟩
  | 74 => ⟨S16x9x64x64x1, .f32⟩
  | 75 => ⟨S16x9x64x64x1, .f32⟩
  | 76 => ⟨S16x9x64x64x4, .f32⟩
  | 77 => ⟨S16x36864x1x4, .f32⟩
  | 78 => ⟨S16x40x4, .f32⟩
  | 79 => ⟨S16x1x40x4, .f32⟩
  | 80 => ⟨S16x36864x1x1, .f32⟩
  | 81 => ⟨S16x36864x1, .f32⟩
  | 82 => ⟨S16x1x40x1, .f32⟩
  | 83 => ⟨S16x1x40, .f32⟩
  | 84 => ⟨S16x36864x40, .f32⟩
  | 85 => ⟨S16x36864x40, .f32⟩
  | 86 => ⟨S16x36864x40, .f32⟩
  | 87 => ⟨S16x36864x1x1, .f32⟩
  | 88 => ⟨S16x36864x1, .f32⟩
  | 89 => ⟨S16x1x40x1, .f32⟩
  | 90 => ⟨S16x1x40, .f32⟩
  | 91 => ⟨S16x36864x40, .f32⟩
  | 92 => ⟨S16x36864x40, .f32⟩
  | 93 => ⟨S16x36864x40, .f32⟩
  | 94 => ⟨S16x36864x1x1, .f32⟩
  | 95 => ⟨S16x36864x1, .f32⟩
  | 96 => ⟨S16x1x40x1, .f32⟩
  | 97 => ⟨S16x1x40, .f32⟩
  | 98 => ⟨S16x36864x40, .f32⟩
  | 99 => ⟨S16x36864x40, .f32⟩
  | 100 => ⟨S16x36864x40, .f32⟩
  | 101 => ⟨S16x36864x1x1, .f32⟩
  | 102 => ⟨S16x36864x1, .f32⟩
  | 103 => ⟨S16x1x40x1, .f32⟩
  | 104 => ⟨S16x1x40, .f32⟩
  | 105 => ⟨S16x36864x40, .f32⟩
  | 106 => ⟨S16x36864x40, .f32⟩
  | 107 => ⟨S16x36864x40, .f32⟩
  | 108 => ⟨S16x36864x40, .f32⟩
  | 109 => ⟨S_, .f32⟩
  | 110 => ⟨S_, .f32⟩
  | 111 => ⟨S16x36864x40, .f32⟩
  | 112 => ⟨S16x36864x40, .f32⟩
  | 113 => ⟨S16x36864x40, .f32⟩
  | 114 => ⟨S_, .f32⟩
  | 115 => ⟨S_, .f32⟩
  | 116 => ⟨S16x36864x40, .f32⟩
  | 117 => ⟨S16x36864x40, .f32⟩
  | 118 => ⟨S16x36864x40, .f32⟩
  | 119 => ⟨S16x36864x1x1, .f32⟩
  | 120 => ⟨S16x36864x1, .f32⟩
  | 121 => ⟨S16x36864x1x1, .f32⟩
  | 122 => ⟨S16x36864x1, .f32⟩
  | 123 => ⟨S16x36864x1, .f32⟩
  | 124 => ⟨S16x36864x1x1, .f32⟩
  | 125 => ⟨S16x36864x1, .f32⟩
  | 126 => ⟨S16x36864x1x1, .f32⟩
  | 127 => ⟨S16x36864x1, .f32⟩
  | _ => ⟨S9x2, .f32⟩

abbrev hbmTy0_1 (i : Nat) : BufTy := match i % 128 with
  | 0 => ⟨S16x36864x1, .f32⟩
  | 1 => ⟨S16x36864x1, .f32⟩
  | 2 => ⟨S16x1x40x1, .f32⟩
  | 3 => ⟨S16x1x40, .f32⟩
  | 4 => ⟨S16x1x40x1, .f32⟩
  | 5 => ⟨S16x1x40, .f32⟩
  | 6 => ⟨S16x1x40, .f32⟩
  | 7 => ⟨S16x1x40x1, .f32⟩
  | 8 => ⟨S16x1x40, .f32⟩
  | 9 => ⟨S16x1x40x1, .f32⟩
  | 10 => ⟨S16x1x40, .f32⟩
  | 11 => ⟨S16x1x40, .f32⟩
  | 12 => ⟨S16x1x40, .f32⟩
  | 13 => ⟨S16x36864x40, .f32⟩
  | 14 => ⟨S16x36864x40, .f32⟩
  | 15 => ⟨S16x36864x40, .f32⟩
  | 16 => ⟨S16x36864x40, .f32⟩
  | 17 => ⟨S16x36864x40, .f32⟩
  | _ => ⟨S9x2, .f32⟩

abbrev hbmTy (i : Nat) : BufTy := match i / 128 with
  | 0 => hbmTy0_0 i
  | 1 => hbmTy0_1 i
  | _ => ⟨S9x2, .f32⟩

abbrev bufTy : (tb : Table) → Fin (tcTables nBuf tb) → BufTy
  | .hbm, ⟨i, _⟩ => hbmTy i
  | _, _ => ⟨S9x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_6 : Ref sig .tc := ⟨.hbm, 109, rfl⟩
abbrev main_call0_v0 : Ref sig .tc := ⟨.hbm, 110, rfl⟩
abbrev main_call0_v1 : Ref sig .tc := ⟨.hbm, 111, rfl⟩
abbrev main_v98 : Ref sig .tc := ⟨.hbm, 112, rfl⟩
abbrev main_v99 : Ref sig .tc := ⟨.hbm, 113, rfl⟩
abbrev main_cst_7 : Ref sig .tc := ⟨.hbm, 114, rfl⟩
abbrev main_call1_v0 : Ref sig .tc := ⟨.hbm, 115, rfl⟩
abbrev main_call1_v1 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩

abbrev nD : Nat := 1
abbrev τ : Topo := Topo.v7x

variable {F : FTy → Type} [FloatOps F]

class Facts₀ : Prop where
  bcast_S_S9x2 : S_.BroadcastsInDim S9x2 (![] : Fin 0 → Fin S9x2.rank)
  bcast_S9x2_S1x9x1x1x2_1_4 : S9x2.BroadcastsInDim S1x9x1x1x2 (![1, 4] : Fin 2 → Fin S1x9x1x1x2.rank)
  bcast_S16x64x64x2_S16x1x64x64x2_0_2_3_4 : S16x64x64x2.BroadcastsInDim S16x1x64x64x2 (![0, 2, 3, 4] : Fin 4 → Fin S16x1x64x64x2.rank)
  bcast_S16x1x64x64x2_S16x9x64x64x2_0_1_2_3_4 : S16x1x64x64x2.BroadcastsInDim S16x9x64x64x2 (![0, 1, 2, 3, 4] : Fin 5 → Fin S16x9x64x64x2.rank)
  bcast_S1x9x1x1x2_S16x9x64x64x2_0_1_2_3_4 : S1x9x1x1x2.BroadcastsInDim S16x9x64x64x2 (![0, 1, 2, 3, 4] : Fin 5 → Fin S16x9x64x64x2.rank)
  concatenates_S16x9x64x64x2_S16x9x64x64x2_S16x9x64x64x4_d4 : Shape.Concatenates [S16x9x64x64x2, S16x9x64x64x2] S16x9x64x64x4 4
  slices_S16x9x64x64x4_S16x9x64x64x1_0_0_0_0_0 : S16x9x64x64x4.Slices ![0, 0, 0, 0, 0] S16x9x64x64x1
  shapeCasts_S16x9x64x64x1_S16x9x64x64 : S16x9x64x64x1.ShapeCasts S16x9x64x64
  slices_S16x9x64x64x4_S16x9x64x64x1_0_0_0_0_2 : S16x9x64x64x4.Slices ![0, 0, 0, 0, 2] S16x9x64x64x1
  bcast_S_S16x9x64x64 : S_.BroadcastsInDim S16x9x64x64 (![] : Fin 0 → Fin S16x9x64x64.rank)
  slices_S16x9x64x64x4_S16x9x64x64x1_0_0_0_0_1 : S16x9x64x64x4.Slices ![0, 0, 0, 0, 1] S16x9x64x64x1
  slices_S16x9x64x64x4_S16x9x64x64x1_0_0_0_0_3 : S16x9x64x64x4.Slices ![0, 0, 0, 0, 3] S16x9x64x64x1
  bcast_S16x9x64x64_S16x9x64x64x1_0_1_2_3 : S16x9x64x64.BroadcastsInDim S16x9x64x64x1 (![0, 1, 2, 3] : Fin 4 → Fin S16x9x64x64x1.rank)
  concatenates_S16x9x64x64x1_S16x9x64x64x1_S16x9x64x64x1_S16x9x64x64x1_S16x9x64x64x4_d4 : Shape.Concatenates [S16x9x64x64x1, S16x9x64x64x1, S16x9x64x64x1, S16x9x64x64x1] S16x9x64x64x4 4
  shapeCasts_S16x9x64x64x4_S16x36864x1x4 : S16x9x64x64x4.ShapeCasts S16x36864x1x4
  slices_S16x40x5_S16x40x4_0_0_0 : S16x40x5.Slices ![0, 0, 0] S16x40x4
  bcast_S16x40x4_S16x1x40x4_0_2_3 : S16x40x4.BroadcastsInDim S16x1x40x4 (![0, 2, 3] : Fin 3 → Fin S16x1x40x4.rank)
  slices_S16x36864x1x4_S16x36864x1x1_0_0_0_0 : S16x36864x1x4.Slices ![0, 0, 0, 0] S16x36864x1x1
  shapeCasts_S16x36864x1x1_S16x36864x1 : S16x36864x1x1.ShapeCasts S16x36864x1
  slices_S16x1x40x4_S16x1x40x1_0_0_0_0 : S16x1x40x4.Slices ![0, 0, 0, 0] S16x1x40x1
  shapeCasts_S16x1x40x1_S16x1x40 : S16x1x40x1.ShapeCasts S16x1x40
  bcast_S16x36864x1_S16x36864x40_0_1_2 : S16x36864x1.BroadcastsInDim S16x36864x40 (![0, 1, 2] : Fin 3 → Fin S16x36864x40.rank)
  bcast_S16x1x40_S16x36864x40_0_1_2 : S16x1x40.BroadcastsInDim S16x36864x40 (![0, 1, 2] : Fin 3 → Fin S16x36864x40.rank)
  slices_S16x36864x1x4_S16x36864x1x1_0_0_0_1 : S16x36864x1x4.Slices ![0, 0, 0, 1] S16x36864x1x1
  slices_S16x1x40x4_S16x1x40x1_0_0_0_1 : S16x1x40x4.Slices ![0, 0, 0, 1] S16x1x40x1
  slices_S16x36864x1x4_S16x36864x1x1_0_0_0_2 : S16x36864x1x4.Slices ![0, 0, 0, 2] S16x36864x1x1
  slices_S16x1x40x4_S16x1x40x1_0_0_0_2 : S16x1x40x4.Slices ![0, 0, 0, 2] S16x1x40x1
  slices_S16x36864x1x4_S16x36864x1x1_0_0_0_3 : S16x36864x1x4.Slices ![0, 0, 0, 3] S16x36864x1x1
  slices_S16x1x40x4_S16x1x40x1_0_0_0_3 : S16x1x40x4.Slices ![0, 0, 0, 3] S16x1x40x1
  bcast_S_S16x36864x40 : S_.BroadcastsInDim S16x36864x40 (![] : Fin 0 → Fin S16x36864x40.rank)

variable [Facts₀]

class Facts : Prop extends Facts₀ where

variable [Facts]
-- ==== Proof.Finite.lean ====
/-
  From the precondition to real entries.  The precondition says, of each argument array, that every entry's absolute
  value is strictly below +∞.  On the extended reals |x| = max x (−x), which is +∞ at both infinities; so an entry
  that passes the comparison is a real number.
-/
import proofs.«156533_j11338713661593_1_alg».proof.Pre_finite_inputs
import Idealize.ShloMosaic.PureOps.Ideal
import Idealize.ShloMosaic.Lib.ReduceAll
import Idealize.ShloMosaic.Lib.ValueIdx

noncomputable section

namespace Cert.IoU

open Idealize.ShloMosaic Idealize.ShloMosaic.ValueIdx Cert.Pre_finite_inputs

/-- The pattern 0x7F800000 denotes +∞. -/
theorem inf_eq : Ideal.ofBits .f32 0x7F800000#32 = (⊤ : EReal) := by
  simp [Ideal.ofBits, Ideal.ieee]

/-- An extended real whose absolute value compares strictly below +∞ is a real. -/
theorem real_of_abs_lt (x : EReal) (h : Ideal.cmp .olt (max x (-x)) (Ideal.ofBits .f32 0x7F800000#32) = 1#1) :
    ∃ r : ℝ, x = r := by
  rw [inf_eq] at h
  induction x using EReal.rec with
  | bot => simp [Ideal.cmp] at h
  | coe r => exact ⟨r, rfl⟩
  | top => simp [Ideal.cmp] at h

instance : Subsingleton S_.Idx := ⟨fun a b => funext fun d => d.elim0⟩

/-- One conjunct of the precondition, read at an index: the array's entry there is a real. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r :=
  real_of_abs_lt (x i) (Host.reduce_andi_all _ _ hr hu ix0 h i)

variable [Facts]

/-- The precondition gives real entries in all four argument arrays. -/
theorem real_of_pre (x0 : FVec Ideal S9x2 .f32) (x1 : FVec Ideal S16x64x64x2 .f32) (x2 : FVec Ideal S16x9x64x64x4 .f32)
    (x3 : FVec Ideal S16x40x5 .f32) (h : fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all x0 _ _ _ h1, real_of_all x1 _ _ _ h2, real_of_all x2 _ _ _ h3, real_of_all x3 _ _ _ h4⟩

end Cert.IoU

end
-- ==== Proof.Spec.lean ====
/-
  Intersection-over-union of decoded anchor boxes against ground-truth boxes, as scalar functions on the extended reals.

  A proposal box is decoded from an anchor (w, h), a cell centre (gx, gy) and four offsets (tx, ty, tw, th).  Two
  arrangements of that decoding are compared.  The DIRECT one takes the centre to be g + t and the extent to be
  (2 · (a · ½)) · exp tw; the CORNER one first forms the anchor's corners g − a·½ and g + a·½, recovers the centre as the
  corners' mean and the extent as their difference, and recomputes the proposal's area from its corners.  Over the
  reals the two agree: ((g − s) + (g + s)) · ½ = g, (g + s) − (g − s) = 2 · s, and (c + e·½) − (c − e·½) = e.  Those
  identities fail at infinities, so they are stated for real anchor, centre and offset entries; the ground-truth box
  entries may be any extended reals, since both arrangements use them through the same operations.
-/
import Idealize.ShloMosaic.PureOps.Ideal
import Idealize.ShloMosaic.Lib.ValueIdx

noncomputable section

namespace Cert.IoU

open Idealize.ShloMosaic Idealize.ShloMosaic.ValueIdx

/-- The word of the single-precision constant one half. -/
abbrev cHalf : EReal := Ideal.ofBits .f32 0x3F000000#32
/-- The word of the single-precision constant two. -/
abbrev cTwo : EReal := Ideal.ofBits .f32 0x40000000#32
/-- The word of the single-precision constant zero. -/
abbrev cZero : EReal := Ideal.ofBits .f32 0x00000000#32

/-- The pattern 0x3F000000 denotes the real number 1/2. -/
theorem cHalf_eq : cHalf = ((1 / 2 : ℝ) : EReal) := by
  simp [cHalf, Ideal.ofBits, Ideal.ieee, -EReal.coe_mul]; norm_num

/-- The pattern 0x40000000 denotes the real number 2. -/
theorem cTwo_eq : cTwo = ((2 : ℝ) : EReal) := by
  simp [cTwo, Ideal.ofBits, Ideal.ieee, -EReal.coe_mul]; norm_num

/-- What both arrangements do once the proposal's corners (p0, p1)–(p2, p3) and its area are known: the overlap
    rectangle's sides clipped at zero, their product, and its quotient by the union's area. -/
def overlap (p0 p1 p2 p3 areaP bx1 by1 bx2 by2 : EReal) : EReal :=
  Ideal.div (max cZero (min p2 bx2 - max p0 bx1) * max cZero (min p3 by2 - max p1 by1))
    ((areaP + (bx2 - bx1) * (by2 - by1))
      - max cZero (min p2 bx2 - max p0 bx1) * max cZero (min p3 by2 - max p1 by1))

/-- The direct arrangement's extent along one axis: (2 · (a · ½)) · exp t. -/
def extD (a t : EReal) : EReal := (cTwo * (a * cHalf)) * Ideal.exp t
/-- The direct arrangement's centre along one axis: g + t. -/
def ctrD (g t : EReal) : EReal := g + t

/-- The corner arrangement's centre along one axis: the mean of the anchor's two corners, shifted by t. -/
def ctrC (a g t : EReal) : EReal := ((g - a * cHalf) + (g + a * cHalf)) * cHalf + t
/-- The corner arrangement's extent along one axis: the difference of the anchor's two corners, scaled by exp t. -/
def extC (a g t : EReal) : EReal := ((g + a * cHalf) - (g - a * cHalf)) * Ideal.exp t

/-- The direct arrangement: corners centre ∓ extent · ½, area the product of the two extents. -/
def iouD (a0 a1 g0 g1 t0 t1 t2 t3 bx1 by1 bx2 by2 : EReal) : EReal :=
  overlap (ctrD g0 t0 - extD a0 t2 * cHalf) (ctrD g1 t1 - extD a1 t3 * cHalf)
    (ctrD g0 t0 + extD a0 t2 * cHalf) (ctrD g1 t1 + extD a1 t3 * cHalf)
    (extD a0 t2 * extD a1 t3) bx1 by1 bx2 by2

/-- The corner arrangement: corners centre ∓ extent · ½, area recomputed from the corners. -/
def iouC (a0 a1 g0 g1 t0 t1 t2 t3 bx1 by1 bx2 by2 : EReal) : EReal :=
  overlap (ctrC a0 g0 t0 - extC a0 g0 t2 * cHalf) (ctrC a1 g1 t1 - extC a1 g1 t3 * cHalf)
    (ctrC a0 g0 t0 + extC a0 g0 t2 * cHalf) (ctrC a1 g1 t1 + extC a1 g1 t3 * cHalf)
    (((ctrC a0 g0 t0 + extC a0 g0 t2 * cHalf) - (ctrC a0 g0 t0 - extC a0 g0 t2 * cHalf))
      * ((ctrC a1 g1 t1 + extC a1 g1 t3 * cHalf) - (ctrC a1 g1 t1 - extC a1 g1 t3 * cHalf)))
    bx1 by1 bx2 by2

/-- Over the reals the corners' mean is the cell centre. -/
theorem ctrC_eq (a g t : ℝ) : ctrC a g t = ctrD g t := by
  unfold ctrC ctrD
  rw [cHalf_eq]
  simp only [← EReal.coe_mul, ← EReal.coe_add, ← EReal.coe_sub]
  congr 1; ring

/-- Over the reals the corners' difference is twice the half extent. -/
theorem extC_eq (a g t : ℝ) : extC a g t = extD a t := by
  unfold extC extD
  rw [cHalf_eq, cTwo_eq, Ideal.exp_coe]
  simp only [← EReal.coe_mul, ← EReal.coe_add, ← EReal.coe_sub]
  congr 1; ring

/-- Over the reals a box's side recomputed from its corners c ∓ e · ½ is e. -/
theorem side_eq (g t a u : ℝ) :
    (ctrD (g : EReal) t + extD a u * cHalf) - (ctrD (g : EReal) t - extD a u * cHalf) = extD a u := by
  unfold ctrD extD
  rw [cHalf_eq, cTwo_eq, Ideal.exp_coe]
  simp only [← EReal.coe_mul, ← EReal.coe_add, ← EReal.coe_sub]
  congr 1; ring

/-- THE LAW: for real anchor, centre and offset entries the two arrangements are one function. -/
theorem iouC_eq_iouD (a0 a1 g0 g1 t0 t1 t2 t3 : ℝ) (bx1 by1 bx2 by2 : EReal) :
    iouC a0 a1 g0 g1 t0 t1 t2 t3 bx1 by1 bx2 by2 = iouD a0 a1 g0 g1 t0 t1 t2 t3 bx1 by1 bx2 by2 := by
  unfold iouC iouD
  rw [ctrC_eq, ctrC_eq, extC_eq, extC_eq, side_eq, side_eq]

/-! ## The flattened anchor axis

The result's middle axis runs over (anchor, row, column) in row-major order: position n = a · 4096 + h · 64 + w. -/

/-- The anchor of flattened position n. -/
abbrev ancOf (n : Fin 36864) : Fin 9 := ⟨n.val / 4096, by omega⟩
/-- The grid row of flattened position n. -/
abbrev rowOf (n : Fin 36864) : Fin 64 := ⟨n.val / 64 % 64, by omega⟩
/-- The grid column of flattened position n. -/
abbrev colOf (n : Fin 36864) : Fin 64 := ⟨n.val % 64, by omega⟩

/-- The whole result as one function of the four argument arrays, by an arrangement `f` of the scalar computation:
    entry (b, n, j) decodes anchor `ancOf n` at cell (`rowOf n`, `colOf n`) of image b and compares it with box j of
    image b. -/
def result (f : EReal → EReal → EReal → EReal → EReal → EReal → EReal → EReal → EReal → EReal → EReal → EReal → EReal)
    (anc : FVec Ideal ⟨2, ![9, 2]⟩ .f32) (grid : FVec Ideal ⟨4, ![16, 64, 64, 2]⟩ .f32)
    (off : FVec Ideal ⟨5, ![16, 9, 64, 64, 4]⟩ .f32) (box : FVec Ideal ⟨3, ![16, 40, 5]⟩ .f32)
    (b : Fin 16) (n : Fin 36864) (j : Fin 40) : EReal :=
  f (anc (ix2 (ancOf n) (0 : Fin 2))) (anc (ix2 (ancOf n) (1 : Fin 2)))
    (grid (ix4 b (rowOf n) (colOf n) (0 : Fin 2))) (grid (ix4 b (rowOf n) (colOf n) (1 : Fin 2)))
    (off (ix5 b (ancOf n) (rowOf n) (colOf n) (0 : Fin 4))) (off (ix5 b (ancOf n) (rowOf n) (colOf n) (1 : Fin 4)))
    (off (ix5 b (ancOf n) (rowOf n) (colOf n) (2 : Fin 4))) (off (ix5 b (ancOf n) (rowOf n) (colOf n) (3 : Fin 4)))
    (box (ix3 b j (0 : Fin 5))) (box (ix3 b j (1 : Fin 5))) (box (ix3 b j (2 : Fin 5))) (box (ix3 b j (3 : Fin 5)))

/-- The result array by the direct arrangement. -/
def G (anc : FVec Ideal ⟨2, ![9, 2]⟩ .f32) (grid : FVec Ideal ⟨4, ![16, 64, 64, 2]⟩ .f32)
    (off : FVec Ideal ⟨5, ![16, 9, 64, 64, 4]⟩ .f32) (box : FVec Ideal ⟨3, ![16, 40, 5]⟩ .f32) :
    FVec Ideal ⟨3, ![16, 36864, 40]⟩ .f32 :=
  fun i => result iouD anc grid off box ⟨(i 0).val, (i 0).isLt⟩ ⟨(i 1).val, (i 1).isLt⟩ ⟨(i 2).val, (i 2).isLt⟩

/-- When the anchor, grid and offset arrays hold reals, the corner arrangement gives the same array entry. -/
theorem result_corner_eq (anc : FVec Ideal ⟨2, ![9, 2]⟩ .f32) (grid : FVec Ideal ⟨4, ![16, 64, 64, 2]⟩ .f32)
    (off : FVec Ideal ⟨5, ![16, 9, 64, 64, 4]⟩ .f32) (box : FVec Ideal ⟨3, ![16, 40, 5]⟩ .f32)
    (hanc : ∀ i, ∃ r : ℝ, anc i = r) (hgrid : ∀ i, ∃ r : ℝ, grid i = r) (hoff : ∀ i, ∃ r : ℝ, off i = r)
    (b : Fin 16) (n : Fin 36864) (j : Fin 40) :
    result iouC anc grid off box b n j = result iouD anc grid off box b n j := by
  unfold result
  obtain ⟨a0, e0⟩ := hanc (ix2 (ancOf n) (0 : Fin 2))
  obtain ⟨a1, e1⟩ := hanc (ix2 (ancOf n) (1 : Fin 2))
  obtain ⟨g0, e2⟩ := hgrid (ix4 b (rowOf n) (colOf n) (0 : Fin 2))
  obtain ⟨g1, e3⟩ := hgrid (ix4 b (rowOf n) (colOf n) (1 : Fin 2))
  obtain ⟨t0, e4⟩ := hoff (ix5 b (ancOf n) (rowOf n) (colOf n) (0 : Fin 4))
  obtain ⟨t1, e5⟩ := hoff (ix5 b (ancOf n) (rowOf n) (colOf n) (1 : Fin 4))
  obtain ⟨t2, e6⟩ := hoff (ix5 b (ancOf n) (rowOf n) (colOf n) (2 : Fin 4))
  obtain ⟨t3, e7⟩ := hoff (ix5 b (ancOf n) (rowOf n) (colOf n) (3 : Fin 4))
  rw [e0, e1, e2, e3, e4, e5, e6, e7]
  exact iouC_eq_iouD a0 a1 g0 g1 t0 t1 t2 t3 _ _ _ _

end Cert.IoU

end
-- ==== Proof.LibIdxExt.lean ====
/-
  An index of rank 2 to 5 IS the index built from given coordinates as soon as its coordinates agree with them as
  natural numbers.  A composed re-indexing of layout operations, applied to an index given by coordinates, computes
  each of its coordinates separately; these lemmas collect the coordinate facts into one equation between indices.
-/
import Idealize.ShloMosaic.Lib.ValueIdx

namespace Cert.LibIdxExt

open Idealize.ShloMosaic Idealize.ShloMosaic.ValueIdx

/-- A rank-2 index with coordinates `a`, `b` is `ix2 a b`. -/
theorem eq_ix2_of {n0 n1 : ℕ} (x : (⟨2, ![n0, n1]⟩ : Shape).Idx) (a : Fin n0) (b : Fin n1)
    (h0 : (x 0).val = a.val) (h1 : (x 1).val = b.val) : x = ix2 a b :=
  funext fun d => Fin.ext <| match d with | ⟨0, _⟩ => h0 | ⟨1, _⟩ => h1

/-- A rank-3 index with coordinates `a`, `b`, `c` is `ix3 a b c`. -/
theorem eq_ix3_of {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c :=
  funext fun d => Fin.ext <| match d with | ⟨0, _⟩ => h0 | ⟨1, _⟩ => h1 | ⟨2, _⟩ => h2

/-- A rank-4 index with coordinates `a`, `b`, `c`, `e` is `ix4 a b c e`. -/
theorem eq_ix4_of {n0 n1 n2 n3 : ℕ} (x : (⟨4, ![n0, n1, n2, n3]⟩ : Shape).Idx) (a : Fin n0) (b : Fin n1) (c : Fin n2)
    (e : Fin n3) (h0 : (x 0).val = a.val) (h1 : (x 1).val = b.val) (h2 : (x 2).val = c.val) (h3 : (x 3).val = e.val) :
    x = ix4 a b c e :=
  funext fun d => Fin.ext <| match d with | ⟨0, _⟩ => h0 | ⟨1, _⟩ => h1 | ⟨2, _⟩ => h2 | ⟨3, _⟩ => h3

/-- A rank-5 index with coordinates `a`, `b`, `c`, `e`, `f` is `ix5 a b c e f`. -/
theorem eq_ix5_of {n0 n1 n2 n3 n4 : ℕ} (x : (⟨5, ![n0, n1, n2, n3, n4]⟩ : Shape).Idx) (a : Fin n0) (b : Fin n1)
    (c : Fin n2) (e : Fin n3) (f : Fin n4) (h0 : (x 0).val = a.val) (h1 : (x 1).val = b.val) (h2 : (x 2).val = c.val)
    (h3 : (x 3).val = e.val) (h4 : (x 4).val = f.val) : x = ix5 a b c e f :=
  funext fun d => Fin.ext <| match d with | ⟨0, _⟩ => h0 | ⟨1, _⟩ => h1 | ⟨2, _⟩ => h2 | ⟨3, _⟩ => h3 | ⟨4, _⟩ => h4

end Cert.LibIdxExt
-- ==== Proof.RefRead.lean ====
/-
  The reference, entry by entry.  The reference builds every anchor's corners g ∓ a·½ for all 16 · 9 · 64 · 64
  (image, anchor, row, column) positions, decodes each proposal's centre as the corners' mean plus the first two
  offsets and its extent as the corners' difference times the exponential of the last two, lays the four proposal
  corners side by side, flattens (anchor, row, column) into one axis of 36864 positions, and compares each proposal
  with each of the image's 40 boxes.  Read at entry (b, n, j) of the result this is the corner arrangement
  `Cert.IoU.iouC` at anchor `ancOf n`, cell (`rowOf n`, `colOf n`) and box j: every operation is pointwise or a
  re-layout, so each stage is read at an index from its operands at an index.
-/
import proofs.«156533_j11338713661593_1_alg».proof.Proof.Gen.ReferenceIdeal.Read
import proofs.«156533_j11338713661593_1_alg».proof.Proof.Spec
import proofs.«156533_j11338713661593_1_alg».proof.Proof.LibIdxExt

noncomputable section

namespace Cert.ReferenceIdeal.RefRead

open Idealize.ShloMosaic Idealize.ShloMosaic.ValueIdx Cert.ReferenceIdeal Cert.ReferenceIdeal.Gen Cert.ReferenceIdeal.Read Cert.IoU
  Cert.LibIdxExt

variable (A : FVec Ideal S9x2 .f32) (Gd : FVec Ideal S16x64x64x2 .f32) (Of : FVec Ideal S16x9x64x64x4 .f32)
  (Bx : FVec Ideal S16x40x5 .f32)

/-! ## The anchors' corners -/

/-- Half an anchor side. -/
theorem half_apply (a : Fin 9) (k : Fin 2) : val_main_v1 (F := Ideal) A (ix2 a k) = A (ix2 a k) * cHalf := by
  rw [val_main_v1_apply, val_main_v0_apply, val_main_cst_apply]; rfl

/-- The anchor's low corner along axis k at (image b, anchor a, row h, column w): g − a·½. -/
theorem lo_apply (b : Fin 16) (a : Fin 9) (h w : Fin 64) (k : Fin 2) :
    val_main_v6 (F := Ideal) A Gd (ix5 b a h w k) = Gd (ix4 b h w k) - A (ix2 a k) * cHalf := by
  rw [val_main_v6_apply, val_main_v4_apply, val_main_v3_apply, val_main_v5_apply, val_main_v2_apply,
    eq_ix4_of (idx_main_v3 (idx_main_v4 (ix5 b a h w k))) b h w k rfl rfl rfl rfl,
    eq_ix2_of (idx_main_v2 (idx_main_v5 (ix5 b a h w k))) a k rfl rfl, half_apply]
  rfl

/-- The anchor's high corner along axis k: g + a·½. -/
theorem hi_apply (b : Fin 16) (a : Fin 9) (h w : Fin 64) (k : Fin 2) :
    val_main_v9 (F := Ideal) A Gd (ix5 b a h w k) = Gd (ix4 b h w k) + A (ix2 a k) * cHalf := by
  rw [val_main_v9_apply, val_main_v7_apply, val_main_v3_apply, val_main_v8_apply, val_main_v2_apply,
    eq_ix4_of (idx_main_v3 (idx_main_v7 (ix5 b a h w k))) b h w k rfl rfl rfl rfl,
    eq_ix2_of (idx_main_v2 (idx_main_v8 (ix5 b a h w k))) a k rfl rfl, half_apply]
  rfl

/-- The first two of the four corner columns are the low corners. -/
theorem corners_lo (b : Fin 16) (a : Fin 9) (h w : Fin 64) (o : ℕ) (ho : o < 2) (ho4 : o < 4) :
    val_main_v10 (F := Ideal) A Gd (ix5 b a h w (⟨o, ho4⟩ : Fin 4))
      = Gd (ix4 b h w (⟨o, ho⟩ : Fin 2)) - A (ix2 a (⟨o, ho⟩ : Fin 2)) * cHalf := by
  rw [← lo_apply]
  unfold val_main_v10
  exact concatenate_pair_apply_left (s₁ := S16x9x64x64x2) (s₂ := S16x9x64x64x2) _ _ _ _ (ix5 b a h w (⟨o, ho4⟩ : Fin 4)) rfl (ix5 b a h w (⟨o, ho⟩ : Fin 2))
    (fun d => match d with | ⟨0, _⟩ => rfl | ⟨1, _⟩ => rfl | ⟨2, _⟩ => rfl | ⟨3, _⟩ => rfl | ⟨4, _⟩ => rfl)

/-- The last two of the four corner columns are the high corners. -/
theorem corners_hi (b : Fin 16) (a : Fin 9) (h w : Fin 64) (o : ℕ) (h2 : 2 ≤ o) (ho4 : o < 4) :
    val_main_v10 (F := Ideal) A Gd (ix5 b a h w (⟨o, ho4⟩ : Fin 4))
      = Gd (ix4 b h w (⟨o - 2, by omega⟩ : Fin 2)) + A (ix2 a (⟨o - 2, by omega⟩ : Fin 2)) * cHalf := by
  rw [← hi_apply]
  unfold val_main_v10
  exact concatenate_pair_apply_right (s₁ := S16x9x64x64x2) (s₂ := S16x9x64x64x2) _ _ _ _ (ix5 b a h w (⟨o, ho4⟩ : Fin 4)) rfl rfl (ix5 b a h w (⟨o - 2, by omega⟩ : Fin 2))
    (fun d => match d with
      | ⟨0, _⟩ => fun _ => rfl | ⟨1, _⟩ => fun _ => rfl | ⟨2, _⟩ => fun _ => rfl | ⟨3, _⟩ => fun _ => rfl
      | ⟨4, _⟩ => fun hne => absurd rfl hne)
    (by show o - 2 + 2 = o; omega)

/-- Column o of a five-axis array whose last axis has four entries, with the unit axis the cut leaves dropped, read
    at (b, a, h, w). -/
theorem cornerCol_apply (v : FVec Ideal S16x9x64x64x4 .f32) (o : ℕ) (ho : o < 4)
    (hs : S16x9x64x64x4.Slices ![0, 0, 0, 0, o] S16x9x64x64x1) (b : Fin 16) (a : Fin 9) (h w : Fin 64) :
    shapeCast S16x9x64x64 (extractStridedSlice S16x9x64x64x1 ![0, 0, 0, 0, o] v hs) shapeCasts_S16x9x64x64x1_S16x9x64x64
      (ix4 b a h w) = v (ix5 b a h w (⟨o, ho⟩ : Fin 4)) := by
  rw [shapeCast_apply _ _ (ix4 b a h w) (ix5 b a h w (0 : Fin 1)) (by
      rw [Shape.rowMajor_val_five, Shape.rowMajor_val_four]
      show (((b.val * 9 + a.val) * 64 + h.val) * 64 + w.val) * 1 + 0 = ((b.val * 9 + a.val) * 64 + h.val) * 64 + w.val
      omega)]
  exact extractStridedSlice_apply _ _ _ _ (ix5 b a h w (⟨o, ho⟩ : Fin 4)) (fun d => match d with
    | ⟨0, _⟩ => (Nat.zero_add _).symm | ⟨1, _⟩ => (Nat.zero_add _).symm | ⟨2, _⟩ => (Nat.zero_add _).symm
    | ⟨3, _⟩ => (Nat.zero_add _).symm | ⟨4, _⟩ => rfl)

/-! ## The proposals -/

/-- The proposal's centre along x: the mean of the anchor's x corners plus the first offset. -/
theorem centreX_apply (b : Fin 16) (a : Fin 9) (h w : Fin 64) :
    val_main_v20 (F := Ideal) A Gd Of (ix4 b a h w)
      = ctrC (A (ix2 a (0 : Fin 2))) (Gd (ix4 b h w (0 : Fin 2))) (Of (ix5 b a h w (0 : Fin 4))) := by
  rw [val_main_v20_apply, val_main_v17_apply, val_main_v15_apply, val_main_v16_apply, val_main_cst_0_apply]
  unfold val_main_v12 val_main_v11 val_main_v14 val_main_v13 val_main_v19 val_main_v18 ctrC
  rw [cornerCol_apply _ 0 (by omega), cornerCol_apply _ 2 (by omega), cornerCol_apply _ 0 (by omega),
    corners_lo A Gd b a h w 0 (by omega), corners_hi A Gd b a h w 2 (by omega)]
  rfl

/-- The proposal's centre along y. -/
theorem centreY_apply (b : Fin 16) (a : Fin 9) (h w : Fin 64) :
    val_main_v30 (F := Ideal) A Gd Of (ix4 b a h w)
      = ctrC (A (ix2 a (1 : Fin 2))) (Gd (ix4 b h w (1 : Fin 2))) (Of (ix5 b a h w (1 : Fin 4))) := by
  rw [val_main_v30_apply, val_main_v27_apply, val_main_v25_apply, val_main_v26_apply, val_main_cst_1_apply]
  unfold val_main_v22 val_main_v21 val_main_v24 val_main_v23 val_main_v29 val_main_v28 ctrC
  rw [cornerCol_apply _ 1 (by omega), cornerCol_apply _ 3 (by omega), cornerCol_apply _ 1 (by omega),
    corners_lo A Gd b a h w 1 (by omega), corners_hi A Gd b a h w 3 (by omega)]
  rfl

/-- The proposal's extent along x: the difference of the anchor's x corners times the exponential of the third offset. -/
theorem extentX_apply (b : Fin 16) (a : Fin 9) (h w : Fin 64) :
    val_main_v39 (F := Ideal) A Gd Of (ix4 b a h w)
      = extC (A (ix2 a (0 : Fin 2))) (Gd (ix4 b h w (0 : Fin 2))) (Of (ix5 b a h w (2 : Fin 4))) := by
  rw [val_main_v39_apply, val_main_v35_apply, val_main_v38_apply]
  unfold val_main_v32 val_main_v31 val_main_v34 val_main_v33 val_main_v37 val_main_v36 extC
  rw [cornerCol_apply _ 2 (by omega), cornerCol_apply _ 0 (by omega), cornerCol_apply _ 2 (by omega),
    corners_lo A Gd b a h w 0 (by omega), corners_hi A Gd b a h w 2 (by omega)]
  rfl

/-- The proposal's extent along y. -/
theorem extentY_apply (b : Fin 16) (a : Fin 9) (h w : Fin 64) :
    val_main_v48 (F := Ideal) A Gd Of (ix4 b a h w)
      = extC (A (ix2 a (1 : Fin 2))) (Gd (ix4 b h w (1 : Fin 2))) (Of (ix5 b a h w (3 : Fin 4))) := by
  rw [val_main_v48_apply, val_main_v44_apply, val_main_v47_apply]
  unfold val_main_v41 val_main_v40 val_main_v43 val_main_v42 val_main_v46 val_main_v45 extC
  rw [cornerCol_apply _ 3 (by omega), cornerCol_apply _ 1 (by omega), cornerCol_apply _ 3 (by omega),
    corners_lo A Gd b a h w 1 (by omega), corners_hi A Gd b a h w 3 (by omega)]
  rfl

/-- The proposal's four corners at (b, a, h, w): centre ∓ extent · ½ along x and along y. -/
theorem propX1_apply (b : Fin 16) (a : Fin 9) (h w : Fin 64) :
    val_main_v51 (F := Ideal) A Gd Of (ix4 b a h w)
      = ctrC (A (ix2 a (0 : Fin 2))) (Gd (ix4 b h w (0 : Fin 2))) (Of (ix5 b a h w (0 : Fin 4)))
        - extC (A (ix2 a (0 : Fin 2))) (Gd (ix4 b h w (0 : Fin 2))) (Of (ix5 b a h w (2 : Fin 4))) * cHalf := by
  rw [val_main_v51_apply, val_main_v50_apply, val_main_v49_apply, val_main_cst_2_apply, centreX_apply, extentX_apply]
  rfl
theorem propY1_apply (b : Fin 16) (a : Fin 9) (h w : Fin 64) :
    val_main_v54 (F := Ideal) A Gd Of (ix4 b a h w)
      = ctrC (A (ix2 a (1 : Fin 2))) (Gd (ix4 b h w (1 : Fin 2))) (Of (ix5 b a h w (1 : Fin 4)))
        - extC (A (ix2 a (1 : Fin 2))) (Gd (ix4 b h w (1 : Fin 2))) (Of (ix5 b a h w (3 : Fin 4))) * cHalf := by
  rw [val_main_v54_apply, val_main_v53_apply, val_main_v52_apply, val_main_cst_3_apply, centreY_apply, extentY_apply]
  rfl
theorem propX2_apply (b : Fin 16) (a : Fin 9) (h w : Fin 64) :
    val_main_v57 (F := Ideal) A Gd Of (ix4 b a h w)
      = ctrC (A (ix2 a (0 : Fin 2))) (Gd (ix4 b h w (0 : Fin 2))) (Of (ix5 b a h w (0 : Fin 4)))
        + extC (A (ix2 a (0 : Fin 2))) (Gd (ix4 b h w (0 : Fin 2))) (Of (ix5 b a h w (2 : Fin 4))) * cHalf := by
  rw [val_main_v57_apply, val_main_v56_apply, val_main_v55_apply, val_main_cst_4_apply, centreX_apply, extentX_apply]
  rfl
theorem propY2_apply (b : Fin 16) (a : Fin 9) (h w : Fin 64) :
    val_main_v60 (F := Ideal) A Gd Of (ix4 b a h w)
      = ctrC (A (ix2 a (1 : Fin 2))) (Gd (ix4 b h w (1 : Fin 2))) (Of (ix5 b a h w (1 : Fin 4)))
        + extC (A (ix2 a (1 : Fin 2))) (Gd (ix4 b h w (1 : Fin 2))) (Of (ix5 b a h w (3 : Fin 4))) * cHalf := by
  rw [val_main_v60_apply, val_main_v59_apply, val_main_v58_apply, val_main_cst_5_apply, centreY_apply, extentY_apply]
  rfl

/-! ## The four corners side by side, and the flattened axis -/

/-- A four-axis array given a trailing unit axis reads, at (b, a, h, w, 0), its entry at (b, a, h, w). -/
theorem unitCol_apply (v : FVec Ideal S16x9x64x64 .f32) (b : Fin 16) (a : Fin 9) (h w : Fin 64) (u : Fin 1) :
    broadcastInDim S16x9x64x64x1 ![0, 1, 2, 3] bcast_S16x9x64x64_S16x9x64x64x1_0_1_2_3 v (ix5 b a h w u) = v (ix4 b a h w) :=
  broadcastInDim_apply _ _ v _ _ (fun d => match d with
    | ⟨0, _⟩ => by show b.val = if (16 : ℕ) = 1 then 0 else b.val; rw [if_neg (by decide)]
    | ⟨1, _⟩ => by show a.val = if (9 : ℕ) = 1 then 0 else a.val; rw [if_neg (by decide)]
    | ⟨2, _⟩ => by show h.val = if (64 : ℕ) = 1 then 0 else h.val; rw [if_neg (by decide)]
    | ⟨3, _⟩ => by show w.val = if (64 : ℕ) = 1 then 0 else w.val; rw [if_neg (by decide)])

/-- Column 0 of the proposal array is the low x corner … -/
theorem props0_apply (b : Fin 16) (a : Fin 9) (h w : Fin 64) (ho : 0 < 4) :
    val_main_v65 (F := Ideal) A Gd Of (ix5 b a h w (⟨0, ho⟩ : Fin 4)) = val_main_v51 (F := Ideal) A Gd Of (ix4 b a h w) := by
  rw [← unitCol_apply (val_main_v51 (F := Ideal) A Gd Of) b a h w (0 : Fin 1)]
  unfold val_main_v65
  exact concatenate_apply_piece _ _ _ (ix5 b a h w (⟨0, ho⟩ : Fin 4)) 0 (by simp) S16x9x64x64x1 _ rfl rfl 0 rfl
    (ix5 b a h w (0 : Fin 1))
    (fun d => match d with
      | ⟨0, _⟩ => fun _ => rfl | ⟨1, _⟩ => fun _ => rfl | ⟨2, _⟩ => fun _ => rfl | ⟨3, _⟩ => fun _ => rfl
      | ⟨4, _⟩ => fun hne => absurd rfl hne) rfl
/-- … column 1 the low y corner … -/
theorem props1_apply (b : Fin 16) (a : Fin 9) (h w : Fin 64) (ho : 1 < 4) :
    val_main_v65 (F := Ideal) A Gd Of (ix5 b a h w (⟨1, ho⟩ : Fin 4)) = val_main_v54 (F := Ideal) A Gd Of (ix4 b a h w) := by
  rw [← unitCol_apply (val_main_v54 (F := Ideal) A Gd Of) b a h w (0 : Fin 1)]
  unfold val_main_v65
  exact concatenate_apply_piece _ _ _ (ix5 b a h w (⟨1, ho⟩ : Fin 4)) 1 (by simp) S16x9x64x64x1 _ rfl rfl 1 rfl
    (ix5 b a h w (0 : Fin 1))
    (fun d => match d with
      | ⟨0, _⟩ => fun _ => rfl | ⟨1, _⟩ => fun _ => rfl | ⟨2, _⟩ => fun _ => rfl | ⟨3, _⟩ => fun _ => rfl
      | ⟨4, _⟩ => fun hne => absurd rfl hne) rfl
/-- … column 2 the high x corner … -/
theorem props2_apply (b : Fin 16) (a : Fin 9) (h w : Fin 64) (ho : 2 < 4) :
    val_main_v65 (F := Ideal) A Gd Of (ix5 b a h w (⟨2, ho⟩ : Fin 4)) = val_main_v57 (F := Ideal) A Gd Of (ix4 b a h w) := by
  rw [← unitCol_apply (val_main_v57 (F := Ideal) A Gd Of) b a h w (0 : Fin 1)]
  unfold val_main_v65
  exact concatenate_apply_piece _ _ _ (ix5 b a h w (⟨2, ho⟩ : Fin 4)) 2 (by simp) S16x9x64x64x1 _ rfl rfl 2 rfl
    (ix5 b a h w (0 : Fin 1))
    (fun d => match d with
      | ⟨0, _⟩ => fun _ => rfl | ⟨1, _⟩ => fun _ => rfl | ⟨2, _⟩ => fun _ => rfl | ⟨3, _⟩ => fun _ => rfl
      | ⟨4, _⟩ => fun hne => absurd rfl hne) rfl
/-- … and column 3 the high y corner. -/
theorem props3_apply (b : Fin 16) (a : Fin 9) (h w : Fin 64) (ho : 3 < 4) :
    val_main_v65 (F := Ideal) A Gd Of (ix5 b a h w (⟨3, ho⟩ : Fin 4)) = val_main_v60 (F := Ideal) A Gd Of (ix4 b a h w) := by
  rw [← unitCol_apply (val_main_v60 (F := Ideal) A Gd Of) b a h w (0 : Fin 1)]
  unfold val_main_v65
  exact concatenate_apply_piece _ _ _ (ix5 b a h w (⟨3, ho⟩ : Fin 4)) 3 (by simp) S16x9x64x64x1 _ rfl rfl 3 rfl
    (ix5 b a h w (0 : Fin 1))
    (fun d => match d with
      | ⟨0, _⟩ => fun _ => rfl | ⟨1, _⟩ => fun _ => rfl | ⟨2, _⟩ => fun _ => rfl | ⟨3, _⟩ => fun _ => rfl
      | ⟨4, _⟩ => fun hne => absurd rfl hne) rfl

/-- Flattened position n of image b is anchor `ancOf n` at cell (`rowOf n`, `colOf n`): the two arrays share their
    row-major order. -/
theorem flat_apply (b : Fin 16) (n : Fin 36864) (c : Fin 4) :
    val_main_v66 (F := Ideal) A Gd Of (ix4 b n (0 : Fin 1) c)
      = val_main_v65 (F := Ideal) A Gd Of (ix5 b (ancOf n) (rowOf n) (colOf n) c) := by
  have hb := b.isLt; have hn := n.isLt; have hc := c.isLt
  rw [val_main_v66_apply, eq_ix5_of (idx_main_v66 (ix4 b n (0 : Fin 1) c)) b (ancOf n) (rowOf n) (colOf n) c
    (by show (((b.val * 36864 + n.val) * 1 + 0) * 4 + c.val) / 147456 = b.val; omega)
    (by show (((b.val * 36864 + n.val) * 1 + 0) * 4 + c.val) / 16384 % 9 = n.val / 4096; omega)
    (by show (((b.val * 36864 + n.val) * 1 + 0) * 4 + c.val) / 256 % 64 = n.val / 64 % 64; omega)
    (by show (((b.val * 36864 + n.val) * 1 + 0) * 4 + c.val) / 4 % 64 = n.val % 64; omega)
    (by show (((b.val * 36864 + n.val) * 1 + 0) * 4 + c.val) % 4 = c.val; omega)]

/-! ## The comparison with the boxes -/

/-- Column o of the flattened proposal array, its unit axes dropped, read at (b, n). -/
theorem propCol_apply (v : (⟨S16x36864x1x4, .f32⟩ : BufTy).Contents (Elt Ideal)) (o : ℕ) (ho : o < 4)
    (hs : S16x36864x1x4.Slices ![0, 0, 0, o] S16x36864x1x1) (b : Fin 16) (n : Fin 36864) (u : Fin 1) :
    shapeCast S16x36864x1 (extractStridedSlice S16x36864x1x1 ![0, 0, 0, o] v hs) shapeCasts_S16x36864x1x1_S16x36864x1
      (ix3 b n u) = v (ix4 b n (0 : Fin 1) (⟨o, ho⟩ : Fin 4)) := by
  have hu : u.val = 0 := by omega
  rw [shapeCast_apply _ _ (ix3 b n u) (ix4 b n (0 : Fin 1) (0 : Fin 1)) (by
      rw [Shape.rowMajor_val_four, Shape.rowMajor_val_three]
      show ((b.val * 36864 + n.val) * 1 + 0) * 1 + 0 = (b.val * 36864 + n.val) * 1 + u.val
      omega)]
  exact extractStridedSlice_apply _ _ _ _ (ix4 b n (0 : Fin 1) (⟨o, ho⟩ : Fin 4)) (fun d => match d with
    | ⟨0, _⟩ => (Nat.zero_add _).symm | ⟨1, _⟩ => (Nat.zero_add _).symm | ⟨2, _⟩ => (Nat.zero_add _).symm
    | ⟨3, _⟩ => rfl)

/-- A per-proposal column spread over the 40 boxes reads its proposal's entry. -/
theorem spreadProp_apply (v : (⟨S16x36864x1, .f32⟩ : BufTy).Contents (Elt Ideal)) (b : Fin 16) (n : Fin 36864) (j : Fin 40) :
    broadcastInDim S16x36864x40 ![0, 1, 2] bcast_S16x36864x1_S16x36864x40_0_1_2 v (ix3 b n j) = v (ix3 b n (0 : Fin 1)) :=
  broadcastInDim_apply _ _ v _ _ (fun d => match d with
    | ⟨0, _⟩ => by show b.val = if (16 : ℕ) = 1 then 0 else b.val; rw [if_neg (by decide)]
    | ⟨1, _⟩ => by show n.val = if (36864 : ℕ) = 1 then 0 else n.val; rw [if_neg (by decide)]
    | ⟨2, _⟩ => by show (0 : ℕ) = if (1 : ℕ) = 1 then 0 else j.val; rw [if_pos rfl])

/-- A per-box row spread over the 36864 proposals reads its box's entry. -/
theorem spreadBox_apply (v : (⟨S16x1x40, .f32⟩ : BufTy).Contents (Elt Ideal)) (b : Fin 16) (n : Fin 36864) (j : Fin 40) :
    broadcastInDim S16x36864x40 ![0, 1, 2] bcast_S16x1x40_S16x36864x40_0_1_2 v (ix3 b n j) = v (ix3 b (0 : Fin 1) j) :=
  broadcastInDim_apply _ _ v _ _ (fun d => match d with
    | ⟨0, _⟩ => by show b.val = if (16 : ℕ) = 1 then 0 else b.val; rw [if_neg (by decide)]
    | ⟨1, _⟩ => by show (0 : ℕ) = if (1 : ℕ) = 1 then 0 else n.val; rw [if_pos rfl]
    | ⟨2, _⟩ => by show j.val = if (40 : ℕ) = 1 then 0 else j.val; rw [if_neg (by decide)])

/-- Corner o of box j of image b, through the cut to four columns and the unit axis the reference inserts. -/
theorem boxCol_apply (o : ℕ) (ho : o < 4) (hs : S16x1x40x4.Slices ![0, 0, 0, o] S16x1x40x1) (b : Fin 16) (u : Fin 1)
    (j : Fin 40) :
    shapeCast S16x1x40 (extractStridedSlice S16x1x40x1 ![0, 0, 0, o] (val_main_v68 (F := Ideal) Bx) hs)
      shapeCasts_S16x1x40x1_S16x1x40 (ix3 b u j) = Bx (ix3 b j (⟨o, by omega⟩ : Fin 5)) := by
  have hu : u.val = 0 := by omega
  rw [shapeCast_apply _ _ (ix3 b u j) (ix4 b (0 : Fin 1) j (0 : Fin 1)) (by
      rw [Shape.rowMajor_val_four, Shape.rowMajor_val_three]
      show ((b.val * 1 + 0) * 40 + j.val) * 1 + 0 = (b.val * 1 + u.val) * 40 + j.val
      omega)]
  refine (extractStridedSlice_apply _ _ _ _ (ix4 b (0 : Fin 1) j (⟨o, ho⟩ : Fin 4)) (fun d => match d with
    | ⟨0, _⟩ => (Nat.zero_add _).symm | ⟨1, _⟩ => (Nat.zero_add _).symm | ⟨2, _⟩ => (Nat.zero_add _).symm
    | ⟨3, _⟩ => rfl)).trans ?_
  rw [val_main_v68_apply, val_main_v67_apply,
    eq_ix3_of (idx_main_v67 (idx_main_v68 (ix4 b (0 : Fin 1) j (⟨o, ho⟩ : Fin 4)))) b j (⟨o, by omega⟩ : Fin 5) rfl rfl rfl]

/-- A pointwise product of two per-proposal or per-box columns, at an index. -/
theorem colMul_apply {s : Shape} (x y : (⟨s, .f32⟩ : BufTy).Contents (Elt Ideal)) (i : s.Idx) :
    mulf x y i = FloatOps.mulf (F := Ideal) (φ := .f32) (x i) (y i) := rfl
/-- A pointwise difference of two such columns, at an index. -/
theorem colSub_apply {s : Shape} (x y : (⟨s, .f32⟩ : BufTy).Contents (Elt Ideal)) (i : s.Idx) :
    subf x y i = FloatOps.subf (F := Ideal) (φ := .f32) (x i) (y i) := rfl

/-- THE REFERENCE AT ENTRY (b, n, j): the corner arrangement at anchor `ancOf n`, cell (`rowOf n`, `colOf n`), box j. -/
theorem ref_apply (b : Fin 16) (n : Fin 36864) (j : Fin 40) :
    val_main_v128 (F := Ideal) A Gd Of Bx (ix3 b n j) = result iouC A Gd Of Bx b n j := by
  rw [val_main_v128_apply, val_main_v127_apply, val_main_v126_apply, val_main_v101_apply, val_main_v98_apply,
    val_main_v100_apply, val_main_v97_apply, val_main_v99_apply, val_main_v89_apply, val_main_v75_apply,
    val_main_v96_apply, val_main_v82_apply, val_main_call0_v1_apply, val_main_call0_v0_apply, val_main_cst_6_apply,
    val_main_call1_v1_apply, val_main_call1_v0_apply, val_main_cst_7_apply]
  unfold val_main_v73 val_main_v70 val_main_v69 val_main_v74 val_main_v72 val_main_v71
    val_main_v80 val_main_v77 val_main_v76 val_main_v81 val_main_v79 val_main_v78
    val_main_v87 val_main_v84 val_main_v83 val_main_v88 val_main_v86 val_main_v85
    val_main_v94 val_main_v91 val_main_v90 val_main_v95 val_main_v93 val_main_v92
    val_main_v124 val_main_v112 val_main_v106 val_main_v103 val_main_v102 val_main_v105 val_main_v104
    val_main_v111 val_main_v108 val_main_v107 val_main_v110 val_main_v109
    val_main_v125 val_main_v123 val_main_v117 val_main_v114 val_main_v113 val_main_v116 val_main_v115
    val_main_v122 val_main_v119 val_main_v118 val_main_v121 val_main_v120
  rw [spreadProp_apply, spreadProp_apply, spreadProp_apply, spreadProp_apply, spreadProp_apply,
    spreadBox_apply, spreadBox_apply, spreadBox_apply, spreadBox_apply, spreadBox_apply,
    colMul_apply, colMul_apply, colSub_apply, colSub_apply, colSub_apply, colSub_apply,
    propCol_apply _ 0 (by omega), propCol_apply _ 1 (by omega), propCol_apply _ 2 (by omega), propCol_apply _ 3 (by omega),
    boxCol_apply Bx 0 (by omega), boxCol_apply Bx 1 (by omega), boxCol_apply Bx 2 (by omega), boxCol_apply Bx 3 (by omega),
    flat_apply, flat_apply, flat_apply, flat_apply, props0_apply, props1_apply, props2_apply, props3_apply,
    propX1_apply, propY1_apply, propX2_apply, propY2_apply]
  unfold result iouC overlap
  rfl

end Cert.ReferenceIdeal.RefRead

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibUnitAxes.lean ====
/-
  Shape casts that drop or add TWO leading unit axes, read at an index given by coordinates, at any extents: a
  `[1, 1, a]` array viewed as `[a]`, a `[1, 1, a, b]` array viewed as `[a, b]`, and an `[a, b]` array viewed as
  `[1, 1, a, b]`.  Both sides of each cast sit at the same row-major position, the unit coordinates contributing 0.
-/
import Idealize.ShloMosaic.Lib.Pipeline.Value
import Idealize.ShloMosaic.Lib.ValueIdx

namespace Cert.LibUnitAxes

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`, whatever the unit
    coordinates `u` and `v`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp)

end Cert.LibUnitAxes
-- ==== Proof.KernelPay.lean ====
/-
  What one grid point's body computes, entry by entry.  The body holds one anchor (w, h) as a `[1, 1, 2]` block, 1024
  cell centres as `[1, 1024, 2]`, their offsets as `[1, 1, 1024, 4]` and the image's 40 boxes as `[1, 40, 5]`.
  Entry (r, j) of the `[1, 1, 1024, 40]` block it stores is the direct arrangement of the intersection-over-union
  (`Cert.IoU.iouD`) of cell r's decoded proposal with box j: every vector operation of the body is pointwise or a
  re-layout (a slice of one column, a unit axis added or dropped, a column or a row spread over the 1024 × 40 tile),
  so the entry depends on one element of each block.
-/
import proofs.«156533_j11338713661593_1_alg».proof.Proof.Gen.KernelIdeal.Skeleton
import proofs.«156533_j11338713661593_1_alg».proof.Proof.Spec
import proofs.«156533_j11338713661593_1_alg».proof.Proof.LibKeepdims
import proofs.«156533_j11338713661593_1_alg».proof.Proof.LibUnitAxes
import Idealize.ShloMosaic.Lib.ValueLayout

noncomputable section

namespace Cert.KernelIdeal.Pay

open Idealize.ShloMosaic Idealize.ShloMosaic.ValueIdx Cert.KernelIdeal Cert.KernelIdeal.Gen Cert.IoU
open Cert.LibKeepdims Cert.LibUnitAxes

/-- The offsets block with its two unit axes dropped: row r, column c. -/
theorem offs_apply (x2 : Vec Ideal S1x1x1024x4 .f32) (r : Fin 1024) (c : Fin 4) :
    k0_pay2 (F := Ideal) x2 (ix2 r c) = x2 (ix4 (0 : Fin 1) (0 : Fin 1) r c) := by
  unfold k0_pay2
  exact shapeCast_11ab_ab_apply _ _ r c

/-- The proposal's centre along axis k at cell r: the cell centre plus the first two offsets. -/
theorem centre_apply (x1 : Vec Ideal S1x1024x2 .f32) (x2 : Vec Ideal S1x1x1024x4 .f32) (r : Fin 1024) (k : Fin 2) :
    k0_pay3 (F := Ideal) x1 x2 (ix2 r k)
      = ctrD (x1 (ix3 (0 : Fin 1) r k)) (x2 (ix4 (0 : Fin 1) (0 : Fin 1) r ⟨k.val, by omega⟩)) := by
  unfold k0_pay3 ctrD
  rw [addf_apply, shapeCast_1ab_ab_apply, slice2_axis1_apply 0 _ _ r k ⟨k.val, by omega⟩ (by simp), offs_apply]

/-- The proposal's extent along axis k at cell r: twice the halved anchor side, scaled by the exponential of the
    last two offsets. -/
theorem extent_apply (x0 : Vec Ideal S1x1x2 .f32) (x2 : Vec Ideal S1x1x1024x4 .f32) (r : Fin 1024) (k : Fin 2) :
    k0_pay4 (F := Ideal) x0 x2 (ix2 r k)
      = extD (x0 (ix3 (0 : Fin 1) (0 : Fin 1) k)) (x2 (ix4 (0 : Fin 1) (0 : Fin 1) r ⟨2 + k.val, by omega⟩)) := by
  unfold k0_pay4 extD
  rw [mulf_apply, broadcastTo_1b_ab_apply, shapeCast_a_1a_apply, mulf_apply, mulf_apply, shapeCast_11a_a_apply]
  show _ * Ideal.exp (extractStridedSlice S1024x2 ![0, 2] (k0_pay2 (F := Ideal) x2) slices_S1024x4_o0_2_S1024x2 (ix2 r k)) = _
  rw [slice2_axis1_apply 2 _ _ r k ⟨2 + k.val, by omega⟩ rfl, offs_apply]
  rfl

/-- The proposal's low corner along axis k at cell r. -/
theorem low_apply (x0 : Vec Ideal S1x1x2 .f32) (x1 : Vec Ideal S1x1024x2 .f32) (x2 : Vec Ideal S1x1x1024x4 .f32)
    (r : Fin 1024) (k : Fin 2) :
    k0_pay5 (F := Ideal) x0 x1 x2 (ix2 r k)
      = ctrD (x1 (ix3 (0 : Fin 1) r k)) (x2 (ix4 (0 : Fin 1) (0 : Fin 1) r ⟨k.val, by omega⟩))
        - extD (x0 (ix3 (0 : Fin 1) (0 : Fin 1) k)) (x2 (ix4 (0 : Fin 1) (0 : Fin 1) r ⟨2 + k.val, by omega⟩)) * cHalf := by
  unfold k0_pay5
  rw [subf_apply, mulf_apply, centre_apply, extent_apply]
  rfl

/-- The proposal's high corner along axis k at cell r. -/
theorem high_apply (x0 : Vec Ideal S1x1x2 .f32) (x1 : Vec Ideal S1x1024x2 .f32) (x2 : Vec Ideal S1x1x1024x4 .f32)
    (r : Fin 1024) (k : Fin 2) :
    k0_pay6 (F := Ideal) x0 x1 x2 (ix2 r k)
      = ctrD (x1 (ix3 (0 : Fin 1) r k)) (x2 (ix4 (0 : Fin 1) (0 : Fin 1) r ⟨k.val, by omega⟩))
        + extD (x0 (ix3 (0 : Fin 1) (0 : Fin 1) k)) (x2 (ix4 (0 : Fin 1) (0 : Fin 1) r ⟨2 + k.val, by omega⟩)) * cHalf := by
  unfold k0_pay6
  rw [addf_apply, mulf_apply, centre_apply, extent_apply]
  rfl

/-- Column o of a `[1024, 2]` array as a vector of length 1024. -/
theorem column_apply (v : FVec Ideal S1024x2 .f32) (o : ℕ) (ho : o < 2) (hs : S1024x2.Slices ![0, o] S1024x1) (r : Fin 1024) :
    shapeCast S1024 (extractStridedSlice S1024x1 ![0, o] v hs) shapeCasts_S1024x1_S1024 (ix1 r) = v (ix2 r ⟨o, ho⟩) := by
  rw [shapeCast_a1_a_apply, slice2_axis1_apply o _ _ r (0 : Fin 1) ⟨o, ho⟩ rfl]

/-- Column o of the `[40, 5]` box array as a vector of length 40. -/
theorem boxColumn_apply (v : FVec Ideal S40x5 .f32) (o : ℕ) (ho : o < 5) (hs : S40x5.Slices ![0, o] S40x1) (j : Fin 40) :
    shapeCast S40 (extractStridedSlice S40x1 ![0, o] v hs) shapeCasts_S40x1_S40 (ix1 j) = v (ix2 j ⟨o, ho⟩) := by
  rw [shapeCast_a1_a_apply, slice2_axis1_apply o _ _ j (0 : Fin 1) ⟨o, ho⟩ rfl]

/-- A length-1024 vector spread as a column over the 1024 × 40 tile reads its row's entry. -/
theorem spreadRows_apply (v : FVec Ideal S1024 .f32) (r : Fin 1024) (j : Fin 40) :
    broadcastTo S1024x40 (shapeCast S1024x1 v shapeCasts_S1024_S1024x1) broadcasts_S1024x1_S1024x40 (ix2 r j) = v (ix1 r) := by
  rw [broadcastTo_a1_ab_apply, shapeCast_a_a1_apply]

/-- A length-40 vector spread as a row over the 1024 × 40 tile reads its column's entry. -/
theorem spreadCols_apply (v : FVec Ideal S40 .f32) (r : Fin 1024) (j : Fin 40) :
    broadcastTo S1024x40 (shapeCast S1x40 v shapeCasts_S40_S1x40) broadcasts_S1x40_S1024x40 (ix2 r j) = v (ix1 j) := by
  rw [broadcastTo_1b_ab_apply, shapeCast_a_1a_apply]

/-- The stored block at (r, j) from the body's seven intermediate vectors: the overlap quotient of the proposal
    corners and area at row r with the box columns at j. -/
theorem store_apply (v24 v26 v28 v30 v35 : FVec Ideal S1024 .f32) (v37 : FVec Ideal S40x5 .f32) (v39 : FVec Ideal S40 .f32)
    (r : Fin 1024) (j : Fin 40) :
    k0_pay1 (F := Ideal) v24 v26 v28 v30 v35 v37 v39 (ix4 (0 : Fin 1) (0 : Fin 1) r j)
      = overlap (v24 (ix1 r)) (v26 (ix1 r)) (v28 (ix1 r)) (v30 (ix1 r)) (v35 (ix1 r))
          (v39 (ix1 j)) (v37 (ix2 j (1 : Fin 5))) (v37 (ix2 j (2 : Fin 5))) (v37 (ix2 j (3 : Fin 5))) := by
  unfold k0_pay1 overlap
  rw [shapeCast_ab_11ab_apply, divf_apply, subf_apply, addf_apply, mulf_apply]
  simp only [maximumf_apply, minimumf_apply, subf_apply, mulf_apply, spreadRows_apply, spreadCols_apply,
    boxColumn_apply _ 1 (by omega), boxColumn_apply _ 2 (by omega), boxColumn_apply _ 3 (by omega), broadcast_apply]
  rfl

/-- ENTRY (r, j) OF THE STORED BLOCK, from the four input blocks: the direct arrangement at the anchor's two sides,
    cell r's centre and offsets, and box j's corners. -/
theorem block_apply (x0 : Vec Ideal S1x1x2 .f32) (x1 : Vec Ideal S1x1024x2 .f32) (x2 : Vec Ideal S1x1x1024x4 .f32)
    (x3 : Vec Ideal S1x40x5 .f32) (r : Fin 1024) (j : Fin 40) :
    k0_pay1 (F := Ideal) (k0_pay7 x0 x1 x2) (k0_pay8 x0 x1 x2) (k0_pay9 x0 x1 x2) (k0_pay10 x0 x1 x2) (k0_pay11 x0 x2)
        (k0_pay12 x3) (k0_pay13 x3) (ix4 (0 : Fin 1) (0 : Fin 1) r j)
      = iouD (x0 (ix3 (0 : Fin 1) (0 : Fin 1) (0 : Fin 2))) (x0 (ix3 (0 : Fin 1) (0 : Fin 1) (1 : Fin 2)))
          (x1 (ix3 (0 : Fin 1) r (0 : Fin 2))) (x1 (ix3 (0 : Fin 1) r (1 : Fin 2)))
          (x2 (ix4 (0 : Fin 1) (0 : Fin 1) r (0 : Fin 4))) (x2 (ix4 (0 : Fin 1) (0 : Fin 1) r (1 : Fin 4)))
          (x2 (ix4 (0 : Fin 1) (0 : Fin 1) r (2 : Fin 4))) (x2 (ix4 (0 : Fin 1) (0 : Fin 1) r (3 : Fin 4)))
          (x3 (ix3 (0 : Fin 1) j (0 : Fin 5))) (x3 (ix3 (0 : Fin 1) j (1 : Fin 5)))
          (x3 (ix3 (0 : Fin 1) j (2 : Fin 5))) (x3 (ix3 (0 : Fin 1) j (3 : Fin 5))) := by
  rw [store_apply]
  unfold k0_pay7 k0_pay8 k0_pay9 k0_pay10 k0_pay11 k0_pay13 k0_pay12 iouD
  rw [column_apply _ 0 (by omega), column_apply _ 1 (by omega), column_apply _ 0 (by omega), column_apply _ 1 (by omega),
    low_apply, low_apply, high_apply, high_apply, mulf_apply, column_apply _ 0 (by omega), column_apply _ 1 (by omega),
    extent_apply, extent_apply, boxColumn_apply _ 0 (by omega)]
  simp only [shapeCast_1ab_ab_apply]
  rfl

/-- The same at any index y of the stored block: its row and column are y's last two coordinates. -/
theorem block_at (x0 : Vec Ideal S1x1x2 .f32) (x1 : Vec Ideal S1x1024x2 .f32) (x2 : Vec Ideal S1x1x1024x4 .f32)
    (x3 : Vec Ideal S1x40x5 .f32) (y : S1x1x1024x40.Idx) :
    k0_pay1 (F := Ideal) (k0_pay7 x0 x1 x2) (k0_pay8 x0 x1 x2) (k0_pay9 x0 x1 x2) (k0_pay10 x0 x1 x2) (k0_pay11 x0 x2)
        (k0_pay12 x3) (k0_pay13 x3) y
      = iouD (x0 (ix3 (0 : Fin 1) (0 : Fin 1) (0 : Fin 2))) (x0 (ix3 (0 : Fin 1) (0 : Fin 1) (1 : Fin 2)))
          (x1 (ix3 (0 : Fin 1) ⟨(y 2).val, (y 2).isLt⟩ (0 : Fin 2))) (x1 (ix3 (0 : Fin 1) ⟨(y 2).val, (y 2).isLt⟩ (1 : Fin 2)))
          (x2 (ix4 (0 : Fin 1) (0 : Fin 1) ⟨(y 2).val, (y 2).isLt⟩ (0 : Fin 4)))
          (x2 (ix4 (0 : Fin 1) (0 : Fin 1) ⟨(y 2).val, (y 2).isLt⟩ (1 : Fin 4)))
          (x2 (ix4 (0 : Fin 1) (0 : Fin 1) ⟨(y 2).val, (y 2).isLt⟩ (2 : Fin 4)))
          (x2 (ix4 (0 : Fin 1) (0 : Fin 1) ⟨(y 2).val, (y 2).isLt⟩ (3 : Fin 4)))
          (x3 (ix3 (0 : Fin 1) ⟨(y 3).val, (y 3).isLt⟩ (0 : Fin 5))) (x3 (ix3 (0 : Fin 1) ⟨(y 3).val, (y 3).isLt⟩ (1 : Fin 5)))
          (x3 (ix3 (0 : Fin 1) ⟨(y 3).val, (y 3).isLt⟩ (2 : Fin 5))) (x3 (ix3 (0 : Fin 1) ⟨(y 3).val, (y 3).isLt⟩ (3 : Fin 5))) := by
  have hy : y = ix4 (0 : Fin 1) (0 : Fin 1) (⟨(y 2).val, (y 2).isLt⟩ : Fin 1024) (⟨(y 3).val, (y 3).isLt⟩ : Fin 40) := by
    funext d
    match d with
    | ⟨0, _⟩ => exact Subsingleton.elim (α := Fin 1) _ _
    | ⟨1, _⟩ => exact Subsingleton.elim (α := Fin 1) _ _
    | ⟨2, _⟩ => rfl
    | ⟨3, _⟩ => rfl
  obtain ⟨r, j, rfl⟩ : ∃ (r : Fin 1024) (j : Fin 40), y = ix4 (0 : Fin 1) (0 : Fin 1) r j := ⟨_, _, hy⟩
  exact block_apply x0 x1 x2 x3 r j

end Cert.KernelIdeal.Pay

end
-- ==== Proof.KernelArr.lean ====
/-
  From blocks to the array, and the host lines around the region.  The region's 576 grid points (image b, tile s of
  1024 cells, anchor a) each write back one `[1, 1, 1024, 40]` block of a `[16, 9, 4096, 40]` array, at block index
  (b, a, s, 0); the blocks tile the array.  The body reads the anchor's row of the `[9, 1, 2]` anchor array, tile s of
  image b's 4096 cell centres, tile s of (b, a)'s offsets and image b's boxes.  So the array ends holding, at
  (b, a, r, j), the direct arrangement at anchor a, flat cell r and box j.  The host lines before the region only
  re-view the arguments (4096 flat cells for 64 × 64, a unit axis in the anchor array) and the line after it views
  (anchor, flat cell) as one axis of 36864 positions; all are shape casts, read through their row-major order.
-/
import proofs.«156533_j11338713661593_1_alg».proof.Proof.Gen.KernelIdeal.Frame
import proofs.«156533_j11338713661593_1_alg».proof.Proof.KernelPay
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arr

open Idealize.ShloMosaic.ValueIdx Cert.KernelIdeal Cert.KernelIdeal.Gen Cert.KernelIdeal.Pay Cert.IoU

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The direct arrangement at anchor a, flat cell r and box j of image b, read from the four arrays the region reads. -/
def Hc (anc' : FVec Ideal S9x1x2 .f32) (grid' : FVec Ideal S16x4096x2 .f32) (off' : FVec Ideal S16x9x4096x4 .f32)
    (box : FVec Ideal S16x40x5 .f32) (b : Fin 16) (a : Fin 9) (r : Fin 4096) (j : Fin 40) : EReal :=
  iouD (anc' (ix3 a (0 : Fin 1) (0 : Fin 2))) (anc' (ix3 a (0 : Fin 1) (1 : Fin 2)))
    (grid' (ix3 b r (0 : Fin 2))) (grid' (ix3 b r (1 : Fin 2)))
    (off' (ix4 b a r (0 : Fin 4))) (off' (ix4 b a r (1 : Fin 4))) (off' (ix4 b a r (2 : Fin 4))) (off' (ix4 b a r (3 : Fin 4)))
    (box (ix3 b j (0 : Fin 5))) (box (ix3 b j (1 : Fin 5))) (box (ix3 b j (2 : Fin 5))) (box (ix3 b j (3 : Fin 5)))

/-- The region's result array as one function of the four arrays the region reads: entry (b, a, r, j). -/
def H (anc' : FVec Ideal S9x1x2 .f32) (grid' : FVec Ideal S16x4096x2 .f32) (off' : FVec Ideal S16x9x4096x4 .f32)
    (box : FVec Ideal S16x40x5 .f32) : FVec Ideal S16x9x4096x40 .f32 := fun i =>
  Hc anc' grid' off' box ⟨(i 0).val, (i 0).isLt⟩ ⟨(i 1).val, (i 1).isLt⟩ ⟨(i 2).val, (i 2).isLt⟩ ⟨(i 3).val, (i 3).isLt⟩

/-- The printed index maps, decided over the grid: every input window's block index in terms of the output's
    (image, anchor, tile), and the output's ranges. -/
theorem idx_facts : ∀ t : Fin cfg0.N,
    win0_0.index t (0 : Fin 3) = win0_4.index t (1 : Fin 4) ∧ win0_0.index t (1 : Fin 3) = 0 ∧ win0_0.index t (2 : Fin 3) = 0
    ∧ win0_1.index t (0 : Fin 3) = win0_4.index t (0 : Fin 4) ∧ win0_1.index t (1 : Fin 3) = win0_4.index t (2 : Fin 4)
    ∧ win0_1.index t (2 : Fin 3) = 0
    ∧ win0_2.index t (0 : Fin 4) = win0_4.index t (0 : Fin 4) ∧ win0_2.index t (1 : Fin 4) = win0_4.index t (1 : Fin 4)
    ∧ win0_2.index t (2 : Fin 4) = win0_4.index t (2 : Fin 4) ∧ win0_2.index t (3 : Fin 4) = 0
    ∧ win0_3.index t (0 : Fin 3) = win0_4.index t (0 : Fin 4) ∧ win0_3.index t (1 : Fin 3) = 0 ∧ win0_3.index t (2 : Fin 3) = 0
    ∧ win0_4.index t (0 : Fin 4) < 16 ∧ win0_4.index t (1 : Fin 4) < 9 ∧ win0_4.index t (2 : Fin 4) < 4
    ∧ win0_4.index t (3 : Fin 4) = 0 :=
  (by decide +kernel : ∀ t : Fin grid0.N, _)

/-- The output's block index at point t, in closed form: the grid runs over (image, tile, anchor) in row-major order. -/
theorem idx_at : ∀ t : Fin cfg0.N, win0_4.index t = ![t.val / 36, t.val % 9, t.val / 9 % 4, 0] :=
  (by decide +kernel : ∀ t : Fin grid0.N, win0_4.index t = ![t.val / 36, t.val % 9, t.val / 9 % 4, 0])

/-- Every (image, anchor, tile) is some point's output block: the point (image · 4 + tile) · 9 + anchor. -/
theorem idx_onto (q0 : Fin 16) (q1 : Fin 9) (q2 : Fin 4) : ∃ t : Fin cfg0.N, win0_4.index t = ![q0.val, q1.val, q2.val, 0] := by
  have hN : cfg0.N = 576 := N_0
  refine ⟨⟨(q0.val * 4 + q2.val) * 9 + q1.val, by omega⟩, ?_⟩
  rw [idx_at]
  funext a
  match a with
  | ⟨0, _⟩ => show ((q0.val * 4 + q2.val) * 9 + q1.val) / 36 = q0.val; omega
  | ⟨1, _⟩ => show ((q0.val * 4 + q2.val) * 9 + q1.val) % 9 = q1.val; omega
  | ⟨2, _⟩ => show ((q0.val * 4 + q2.val) * 9 + q1.val) / 9 % 4 = q2.val; omega
  | ⟨3, _⟩ => rfl

/-! ## Each input block is the array read under the output's block -/

/-- The anchor block at point t holds the sides of the anchor the output block is at. -/
theorem anc_blk (c : Dev nD) (t : Fin cfg0.N) (y : S1x1x1024x40.Idx) (k : Fin 2) :
    (iblk m c 0 t : Vec Ideal S1x1x2 .f32) (ix3 (0 : Fin 1) (0 : Fin 1) k)
      = (V m c main_v2 : S9x1x2.Idx → EReal)
          (ix3 (⟨(((cfg0.win 4).blk t).view.emb y 1).val, (((cfg0.win 4).blk t).view.emb y 1).isLt⟩ : Fin 9) (0 : Fin 1) k) := by
  obtain ⟨e0, e1, e2, -⟩ := idx_facts t
  unfold iblk
  rw [View.read_apply]
  show V m c main_v2 _ = V m c main_v2 _
  congr 1
  funext a
  apply Fin.ext
  have hy : (y 1).val < 1 := (y 1).isLt
  match a with
  | ⟨0, _⟩ => show win0_0.index t (0 : Fin 3) * 1 + 1 * 0 = win0_4.index t (1 : Fin 4) * 1 + 1 * (y 1).val; omega
  | ⟨1, _⟩ => show win0_0.index t (1 : Fin 3) * 1 + 1 * 0 = 0; omega
  | ⟨2, _⟩ => show win0_0.index t (2 : Fin 3) * 2 + 1 * k.val = k.val; omega

/-- The cell-centre block at point t holds the output block's tile of its image's centres. -/
theorem grid_blk (c : Dev nD) (t : Fin cfg0.N) (y : S1x1x1024x40.Idx) (k : Fin 2) :
    (iblk m c 1 t : Vec Ideal S1x1024x2 .f32) (ix3 (0 : Fin 1) (⟨(y 2).val, (y 2).isLt⟩ : Fin 1024) k)
      = (V m c main_v0 : S16x4096x2.Idx → EReal)
          (ix3 (⟨(((cfg0.win 4).blk t).view.emb y 0).val, (((cfg0.win 4).blk t).view.emb y 0).isLt⟩ : Fin 16)
            (⟨(((cfg0.win 4).blk t).view.emb y 2).val, (((cfg0.win 4).blk t).view.emb y 2).isLt⟩ : Fin 4096) k) := by
  obtain ⟨-, -, -, e0, e1, e2, -⟩ := idx_facts t
  unfold iblk
  rw [View.read_apply]
  show V m c main_v0 _ = V m c main_v0 _
  congr 1
  funext a
  apply Fin.ext
  have hy : (y 0).val < 1 := (y 0).isLt
  match a with
  | ⟨0, _⟩ => show win0_1.index t (0 : Fin 3) * 1 + 1 * 0 = win0_4.index t (0 : Fin 4) * 1 + 1 * (y 0).val; omega
  | ⟨1, _⟩ => show win0_1.index t (1 : Fin 3) * 1024 + 1 * (y 2).val = win0_4.index t (2 : Fin 4) * 1024 + 1 * (y 2).val; omega
  | ⟨2, _⟩ => show win0_1.index t (2 : Fin 3) * 2 + 1 * k.val = k.val; omega

/-- The offsets block at point t holds the output block's tile of its (image, anchor)'s offsets. -/
theorem off_blk (c : Dev nD) (t : Fin cfg0.N) (y : S1x1x1024x40.Idx) (k : Fin 4) :
    (iblk m c 2 t : Vec Ideal S1x1x1024x4 .f32) (ix4 (0 : Fin 1) (0 : Fin 1) (⟨(y 2).val, (y 2).isLt⟩ : Fin 1024) k)
      = (V m c main_v1 : S16x9x4096x4.Idx → EReal)
          (ix4 (⟨(((cfg0.win 4).blk t).view.emb y 0).val, (((cfg0.win 4).blk t).view.emb y 0).isLt⟩ : Fin 16)
            (⟨(((cfg0.win 4).blk t).view.emb y 1).val, (((cfg0.win 4).blk t).view.emb y 1).isLt⟩ : Fin 9)
            (⟨(((cfg0.win 4).blk t).view.emb y 2).val, (((cfg0.win 4).blk t).view.emb y 2).isLt⟩ : Fin 4096) k) := by
  obtain ⟨-, -, -, -, -, -, e0, e1, e2, e3, -⟩ := idx_facts t
  unfold iblk
  rw [View.read_apply]
  show V m c main_v1 _ = V m c main_v1 _
  congr 1
  funext a
  apply Fin.ext
  have hy0 : (y 0).val < 1 := (y 0).isLt
  have hy1 : (y 1).val < 1 := (y 1).isLt
  match a with
  | ⟨0, _⟩ => show win0_2.index t (0 : Fin 4) * 1 + 1 * 0 = win0_4.index t (0 : Fin 4) * 1 + 1 * (y 0).val; omega
  | ⟨1, _⟩ => show win0_2.index t (1 : Fin 4) * 1 + 1 * 0 = win0_4.index t (1 : Fin 4) * 1 + 1 * (y 1).val; omega
  | ⟨2, _⟩ => show win0_2.index t (2 : Fin 4) * 1024 + 1 * (y 2).val = win0_4.index t (2 : Fin 4) * 1024 + 1 * (y 2).val; omega
  | ⟨3, _⟩ => show win0_2.index t (3 : Fin 4) * 4 + 1 * k.val = k.val; omega

/-- The box block at point t holds the output block's image's boxes. -/
theorem box_blk (c : Dev nD) (t : Fin cfg0.N) (y : S1x1x1024x40.Idx) (k : Fin 5) :
    (iblk m c 3 t : Vec Ideal S1x40x5 .f32) (ix3 (0 : Fin 1) (⟨(y 3).val, (y 3).isLt⟩ : Fin 40) k)
      = (V m c main_arg3 : S16x40x5.Idx → EReal)
          (ix3 (⟨(((cfg0.win 4).blk t).view.emb y 0).val, (((cfg0.win 4).blk t).view.emb y 0).isLt⟩ : Fin 16)
            (⟨(((cfg0.win 4).blk t).view.emb y 3).val, (((cfg0.win 4).blk t).view.emb y 3).isLt⟩ : Fin 40) k) := by
  obtain ⟨-, -, -, -, -, -, -, -, -, -, e0, e1, e2, -, -, -, e3⟩ := idx_facts t
  unfold iblk
  rw [View.read_apply]
  show V m c main_arg3 _ = V m c main_arg3 _
  congr 1
  funext a
  apply Fin.ext
  have hy0 : (y 0).val < 1 := (y 0).isLt
  match a with
  | ⟨0, _⟩ => show win0_3.index t (0 : Fin 3) * 1 + 1 * 0 = win0_4.index t (0 : Fin 4) * 1 + 1 * (y 0).val; omega
  | ⟨1, _⟩ => show win0_3.index t (1 : Fin 3) * 40 + 1 * (y 3).val = win0_4.index t (3 : Fin 4) * 40 + 1 * (y 3).val; omega
  | ⟨2, _⟩ => show win0_3.index t (2 : Fin 3) * 5 + 1 * k.val = k.val; omega

/-! ## What a point writes back, the cover, the array -/

/-- WHAT POINT t WRITES BACK is block t of `H` of the arrays as the region finds them. -/
theorem flushed_eq (c : Dev nD) (t : Fin cfg0.N) :
    (dats m 0 c).flushed 4 t
      = ((cfg0.win 4).blk t).view.read (Elt Ideal) (H (V m c main_v2) (V m c main_v0) (V m c main_v1) (V m c main_arg3)) := by
  show (cfg0.win 4).cut (grid0.coords t) ((dats m 0 c).after 4 t) = _
  rw [after0_4]
  unfold out0_4
  rw [View.canon_unit_zero hz4]
  simp only [View.ld_unit_zero (S := S1x1x2) hz3, View.ld_unit_zero (S := S1x1024x2) hz3,
    View.ld_unit_zero (S := S1x1x1024x4) hz4, View.ld_unit_zero (S := S1x40x5) hz3]
  funext y
  refine (block_at (iblk m c 0 t) (iblk m c 1 t) (iblk m c 2 t) (iblk m c 3 t) y).trans ?_
  rw [anc_blk m c t y, anc_blk m c t y, grid_blk m c t y, grid_blk m c t y, off_blk m c t y, off_blk m c t y,
    off_blk m c t y, off_blk m c t y, box_blk m c t y, box_blk m c t y, box_blk m c t y, box_blk m c t y]
  rfl

/-- An index of the array is in point t's block iff each coordinate is in the block's range on its axis. -/
theorem mem_blk (t : Fin cfg0.N) (i : S16x9x4096x40.Idx) :
    i ∈ ((cfg0.win 4).blk t).view.set ↔ ∀ a : Fin 4, win0_4.index t a * S1x1x1024x40.size a ≤ (i a).val
      ∧ (i a).val < win0_4.index t a * S1x1x1024x40.size a + S1x1x1024x40.size a := by
  show i ∈ ((View.whole main_v3).slice (win0_4.rect t)).set ↔ _
  rw [View.set_slice_whole, Rect.mem_set_unit]
  exact Iff.rfl

/-- The blocks tile the array: entry (b, a, r, j) is in the block of the point at (b, a, r / 1024). -/
theorem cover (i : S16x9x4096x40.Idx) : ∃ t : Fin cfg0.N, (cfg0.win 4).flush t = true ∧ i ∈ ((cfg0.win 4).blk t).view.set := by
  have h0 : (i 0).val < 16 := (i 0).isLt
  have h1 : (i 1).val < 9 := (i 1).isLt
  have h2 : (i 2).val < 4096 := (i 2).isLt
  have h3 : (i 3).val < 40 := (i 3).isLt
  obtain ⟨t, ht⟩ := idx_onto ⟨(i 0).val, h0⟩ ⟨(i 1).val, h1⟩ ⟨(i 2).val / 1024, by omega⟩
  have q0 : win0_4.index t (0 : Fin 4) = (i 0).val := congrFun ht 0
  have q1 : win0_4.index t (1 : Fin 4) = (i 1).val := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 40 ≤ (i 3).val ∧ (i 3).val < win0_4.index t (3 : Fin 4) * 40 + 40; omega

/-- THE REGION'S ARRAY after the run. -/
theorem final (c : Dev nD) :
    (dats m 0 c).arrAt 4 cfg0.N = H (V m c main_v2) (V m c main_v0) (V m c main_v1) (V m c main_arg3) :=
  (dats m 0 c).arrAt_eq_of_cover 4 _ (fun t _ => flushed_eq m c t) cover

/-! ## The host lines before the region -/

/-- The anchor array as the region finds it: the argument with a unit axis in the middle. -/
theorem V_anc (c : Dev nD) : (V m c main_v2 : S9x1x2.Idx → EReal)
    = shapeCast S9x1x2 (m ((c : Thread nD τ).loc main_arg0)) shapeCasts_S9x2_S9x1x2 := by
  show StableHlo.after hostOps0 (fun b => m (c, b)) (Proc.devRef .tc main_v2) = _
  after_results
  rfl

/-- The cell centres as the region finds them: rows and columns as one axis of 4096 flat cells. -/
theorem V_grid (c : Dev nD) : (V m c main_v0 : S16x4096x2.Idx → EReal)
    = shapeCast S16x4096x2 (m ((c : Thread nD τ).loc main_arg1)) shapeCasts_S16x64x64x2_S16x4096x2 := by
  show StableHlo.after hostOps0 (fun b => m (c, b)) (Proc.devRef .tc main_v0) = _
  after_results
  rfl

/-- The offsets as the region finds them: rows and columns as one axis of 4096 flat cells. -/
theorem V_off (c : Dev nD) : (V m c main_v1 : S16x9x4096x4.Idx → EReal)
    = shapeCast S16x9x4096x4 (m ((c : Thread nD τ).loc main_arg2)) shapeCasts_S16x9x64x64x4_S16x9x4096x4 := by
  show StableHlo.after hostOps0 (fun b => m (c, b)) (Proc.devRef .tc main_v1) = _
  after_results
  rfl

/-! ## The region's array in the arguments' own coordinates -/

/-- Entry (b, a·4096 + r, j) of the flattened result, with a = n / 4096 and r = n % 4096, is `G` of the arguments at
    (b, n, j): flat cell r is row r / 64, column r % 64. -/
theorem H_eq_G (c : Dev nD) (b : Fin 16) (n : Fin 36864) (j : Fin 40) :
    H (V m c main_v2) (V m c main_v0) (V m c main_v1) (V m c main_arg3)
        (ix4 b (⟨n.val / 4096, by omega⟩ : Fin 9) (⟨n.val % 4096, by omega⟩ : Fin 4096) j)
      = G (m ((c : Thread nD τ).loc main_arg0)) (m ((c : Thread nD τ).loc main_arg1)) (m ((c : Thread nD τ).loc main_arg2))
          (m ((c : Thread nD τ).loc main_arg3)) (ix3 b n j) := by
  have hn := n.isLt
  show Hc (V m c main_v2) (V m c main_v0) (V m c main_v1) (V m c main_arg3) b (⟨n.val / 4096, by omega⟩ : Fin 9)
      (⟨n.val % 4096, by omega⟩ : Fin 4096) j
    = result iouD (m ((c : Thread nD τ).loc main_arg0)) (m ((c : Thread nD τ).loc main_arg1))
        (m ((c : Thread nD τ).loc main_arg2)) (m ((c : Thread nD τ).loc main_arg3)) b n j
  have ea : ∀ k : Fin 2, shapeCast S9x1x2 (m ((c : Thread nD τ).loc main_arg0)) shapeCasts_S9x2_S9x1x2
      (ix3 (⟨n.val / 4096, by omega⟩ : Fin 9) (0 : Fin 1) k) = m ((c : Thread nD τ).loc main_arg0) (ix2 (ancOf n) k) := fun k =>
    shapeCast_apply _ _ _ _ (by
      show (S9x2.rowMajor _).val = (S9x1x2.rowMajor _).val
      rw [Shape.rowMajor_val_two, Shape.rowMajor_val_three]
      show n.val / 4096 * 2 + k.val = (n.val / 4096 * 1 + 0) * 2 + k.val
      omega)
  have eg : ∀ k : Fin 2, shapeCast S16x4096x2 (m ((c : Thread nD τ).loc main_arg1)) shapeCasts_S16x64x64x2_S16x4096x2
      (ix3 b (⟨n.val % 4096, by omega⟩ : Fin 4096) k) = m ((c : Thread nD τ).loc main_arg1) (ix4 b (rowOf n) (colOf n) k) := fun k =>
    shapeCast_apply _ _ _ _ (by
      show (S16x64x64x2.rowMajor _).val = (S16x4096x2.rowMajor _).val
      rw [Shape.rowMajor_val_four, Shape.rowMajor_val_three]
      show ((b.val * 64 + n.val / 64 % 64) * 64 + n.val % 64) * 2 + k.val = (b.val * 4096 + n.val % 4096) * 2 + k.val
      omega)
  have eo : ∀ k : Fin 4, shapeCast S16x9x4096x4 (m ((c : Thread nD τ).loc main_arg2)) shapeCasts_S16x9x64x64x4_S16x9x4096x4
      (ix4 b (⟨n.val / 4096, by omega⟩ : Fin 9) (⟨n.val % 4096, by omega⟩ : Fin 4096) k)
        = m ((c : Thread nD τ).loc main_arg2) (ix5 b (ancOf n) (rowOf n) (colOf n) k) := fun k =>
    shapeCast_apply _ _ _ _ (by
      show (S16x9x64x64x4.rowMajor _).val = (S16x9x4096x4.rowMajor _).val
      rw [Shape.rowMajor_val_five, Shape.rowMajor_val_four]
      show (((b.val * 9 + n.val / 4096) * 64 + n.val / 64 % 64) * 64 + n.val % 64) * 4 + k.val
        = ((b.val * 9 + n.val / 4096) * 4096 + n.val % 4096) * 4 + k.val
      omega)
  unfold Hc result
  rw [V_anc, V_grid, V_off, V_main_arg3, ea, ea, eg, eg, eo, eo, eo, eo]

/-! ## The host line after the region, and the run -/

/-- THE RESULT: the flattened view of the region's array is `G` of the arguments. -/
theorem result_eq (c : Dev nD) :
    Pipeline.afterTail₀ cfgs (dats m) 0 (V0 m) [hostOps1] c main_v4
      = G (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v3)
      = (dats m 0 c).arrAt 4 cfg0.N from Pipeline.withArrays_arr spec0 launch0.win.arr_inj c _ _ 4, final]
  funext i
  obtain ⟨b, n, j, rfl⟩ : ∃ (b : Fin 16) (n : Fin 36864) (j : Fin 40), i = ix3 b n j := ⟨_, _, _, eq_ix3 i⟩
  have hn := n.isLt
  rw [← H_eq_G m c b n j]
  exact shapeCast_apply _ _ _ _ (by
    show (S16x9x4096x40.rowMajor _).val = (S16x36864x40.rowMajor _).val
    rw [Shape.rowMajor_val_four, Shape.rowMajor_val_three]
    show ((b.val * 9 + n.val / 4096) * 4096 + n.val % 4096) * 40 + j.val = (b.val * 36864 + n.val) * 40 + j.val
    omega)

/-- The kernel's run, read: the result at `G` of the arguments, the arguments unchanged. -/
theorem run : θ_run defs (onTc (τ := τ) (main (F := Ideal))) ⟨m, fun _ => 0, ρ⟩ fun r => ∀ c : Dev nD,
      r.2.mem ((c.tc : Thread nD τ).loc main_v4)
        = G (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Arr

end
-- ==== Proof.lean ====
/-
  Intersection-over-union of decoded anchor boxes with ground-truth boxes: a tiled kernel against a whole-array
  reference, equal over the extended reals for finite inputs.

  For every image b, anchor a, grid cell (h, w) and box j both programs decode a proposal box from the anchor's sides, the
  cell centre and four offsets, and return the area of its overlap with box j over the area of their union.  The kernel
  decodes directly — centre g + t, extent (2 · (a · ½)) · exp t, area the product of the extents.  The reference first
  builds the anchor's corners g ∓ a·½, takes the centre as their mean and the extent as their difference, and recomputes
  the proposal's area from its corners.  Over the reals these are one function (`Cert.IoU.iouC_eq_iouD`); at infinite
  anchors, centres or offsets they need not be, so the precondition is used: it makes every entry a real
  (`Cert.IoU.real_of_pre`).  The kernel's result array is `Cert.IoU.G` of the arguments (`Cert.KernelIdeal.Arr.run`:
  each grid point's block, the blocks' cover, the flattening of (anchor, cell) into one axis), the reference's the
  corner arrangement at the same anchor, cell and box (`Cert.ReferenceIdeal.RefRead.ref_apply`).  The kernel's
  idealization rewrites nothing, and the three programs' runs leave the arguments unchanged.
-/
import proofs.«156533_j11338713661593_1_alg».proof.Defs
import proofs.«156533_j11338713661593_1_alg».proof.Proof.Gen.Kernel
import proofs.«156533_j11338713661593_1_alg».proof.Proof.Gen.Kernel.Skeleton
import proofs.«156533_j11338713661593_1_alg».proof.Proof.Gen.Kernel.Launch
import proofs.«156533_j11338713661593_1_alg».proof.Proof.Gen.Kernel.Points
import proofs.«156533_j11338713661593_1_alg».proof.Proof.Gen.Kernel.Frame
import proofs.«156533_j11338713661593_1_alg».proof.Proof.Gen.KernelIdeal
import proofs.«156533_j11338713661593_1_alg».proof.Proof.Gen.KernelIdeal.Skeleton
import proofs.«156533_j11338713661593_1_alg».proof.Proof.Gen.KernelIdeal.Launch
import proofs.«156533_j11338713661593_1_alg».proof.Proof.Gen.KernelIdeal.Points
import proofs.«156533_j11338713661593_1_alg».proof.Proof.Gen.KernelIdeal.Frame
import proofs.«156533_j11338713661593_1_alg».proof.Proof.Gen.ReferenceIdeal
import proofs.«156533_j11338713661593_1_alg».proof.Proof.Gen.Pre_finite_inputs
import proofs.«156533_j11338713661593_1_alg».proof.Proof.Gen.ReferenceIdeal.Run
import proofs.«156533_j11338713661593_1_alg».proof.Proof.Gen.ReferenceIdeal.Read
import proofs.«156533_j11338713661593_1_alg».proof.Proof.Finite
import proofs.«156533_j11338713661593_1_alg».proof.Proof.RefRead
import proofs.«156533_j11338713661593_1_alg».proof.Proof.KernelArr
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the direct arrangement's array of the arguments: the kernel by its run, the reference because
    its corner arrangement agrees with the direct one at real anchors, centres and offsets. -/
theorem algebraic : Cert.algebraic_KernelIdeal_ReferenceIdeal := by
  intro m ρ m' ρ' hpre hagree
  refine ⟨fun c => Cert.IoU.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v128_eq, (hagree c).1, (hagree c).2.1, (hagree c).2.2.1, (hagree c).2.2.2]
  obtain ⟨hanc, hgrid, hoff, -⟩ := Cert.IoU.real_of_pre _ _ _ _ (hpre c)
  funext i
  obtain ⟨b, n, j, rfl⟩ : ∃ (b : Fin 16) (n : Fin 36864) (j : Fin 40), i = ix3 b n j := ⟨_, _, _, eq_ix3 i⟩
  rw [Cert.ReferenceIdeal.RefRead.ref_apply]
  exact Cert.IoU.result_corner_eq _ _ _ _ hanc hgrid hoff b n j

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
